-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x4096x256 : Shape := ⟨3, ![3, 4096, 256]⟩
abbrev S3x128x256 : Shape := ⟨3, ![3, 128, 256]⟩
abbrev S3x128 : Shape := ⟨2, ![3, 128]⟩
abbrev S_ : Shape := ⟨0, ![]⟩
abbrev S3x4096x128 : Shape := ⟨3, ![3, 4096, 128]⟩
abbrev S3x1x128 : Shape := ⟨3, ![3, 1, 128]⟩
abbrev S3 : Shape := ⟨1, ![3]⟩

class Facts : Prop where
  bcast_S_S3x4096x256 : S_.BroadcastsInDim S3x4096x256 (![] : Fin 0 → Fin S3x4096x256.rank)
  reducesTo_S3x4096x256_S_d0_1_2 : S3x4096x256.ReducesTo [0, 1, 2] S_
  h_S_ : 0 < S_.numel
  bcast_S_S3x128x256 : S_.BroadcastsInDim S3x128x256 (![] : Fin 0 → Fin S3x128x256.rank)
  reducesTo_S3x128x256_S_d0_1_2 : S3x128x256.ReducesTo [0, 1, 2] S_
  bcast_S_S3x128 : S_.BroadcastsInDim S3x128 (![] : Fin 0 → Fin S3x128.rank)
  reducesTo_S3x128_S_d0_1 : S3x128.ReducesTo [0, 1] S_
  bcast_S3x128_S3x1x128_0_2 : S3x128.BroadcastsInDim S3x1x128 (![0, 2] : Fin 2 → Fin S3x1x128.rank)
  bcast_S3x1x128_S3x4096x128_0_1_2 : S3x1x128.BroadcastsInDim S3x4096x128 (![0, 1, 2] : Fin 3 → Fin S3x4096x128.rank)
  reducesTo_S3x4096x128_S3_d1_2 : S3x4096x128.ReducesTo [1, 2] S3
  bcast_S_S3 : S_.BroadcastsInDim S3 (![] : Fin 0 → Fin S3.rank)
  reducesTo_S3_S_d0 : S3.ReducesTo [0] S_
  dot_S3x4096x256_S3x128x256_S3x4096x128_2_2_1_1_0_0_wf : DotDims.WF S3x4096x256 S3x128x256 S3x4096x128 [2] [2] [1] [1] [0] [0]

variable [Facts]

def dot_S3x4096x256_S3x128x256_S3x4096x128_2_2_1_1_0_0 : DotDims S3x4096x256 S3x128x256 S3x4096x128 where
  lhsContracting := [2]
  rhsContracting := [2]
  lhsNonContracting := [1]
  rhsNonContracting := [1]
  lhsBatch := [0]
  rhsBatch := [0]
  wf := dot_S3x4096x256_S3x128x256_S3x4096x128_2_2_1_1_0_0_wf
def fn_part3 {F : FTy → Type} [FloatOps F] (main_v43 : IVec S_ 1) (main_v51 : IVec S3 1) (main_c_17 : IVec S_ 1) : IVec S_ 1 :=
  let main_v52 : IVec S_ 1 := (fun x v => Host.reduce IntOp.andi x v reducesTo_S3_S_d0 h_S_) main_v51 main_c_17
  let main_v53 : IVec S_ 1 := andi main_v43 main_v52
  main_v53

def fn_part2 {F : FTy → Type} [FloatOps F] (main_arg0 : FVec F S3x4096x256 .f32) (main_arg1 : FVec F S3x128x256 .f32) (main_arg2 : FVec F S3x128 .f32) (main_arg3 : FVec F S3x128x256 .f32) (main_arg4 : FVec F S3x128 .f32) (main_v33 : IVec S_ 1) : IVec S_ 1 :=
  let main_v34 : FVec F S3x4096x128 .f32 := (fun l r => Host.dotGeneral dot_S3x4096x256_S3x128x256_S3x4096x128_2_2_1_1_0_0 none l r) main_arg0 main_arg1
  let main_v35 : FVec F S3x1x128 .f32 := broadcastInDim S3x1x128 ![0, 2] bcast_S3x128_S3x1x128_0_2 main_arg2
  let main_v36 : FVec F S3x4096x128 .f32 := broadcastInDim S3x4096x128 ![0, 1, 2] bcast_S3x1x128_S3x4096x128_0_1_2 main_v35
  let main_v37 : FVec F S3x4096x128 .f32 := addf main_v34 main_v36
  let main_v38 : FVec F S3x4096x128 .f32 := mulf main_v37 main_v37
  let main_cst_12 : FVec F S_ .f32 := constant S_ .f32 0x00000000#32
  let main_v39 : FVec F S3 .f32 := (fun x v => Host.reduceAdd x v reducesTo_S3x4096x128_S3_d1_2 h_S_) main_v38 main_cst_12
  let main_cst_13 : FVec F S_ .f32 := constant S_ .f32 0x00000000#32
  let main_v40 : FVec F S3 .f32 := broadcastInDim S3 ![] bcast_S_S3 main_cst_13
  let main_v41 : IVec S3 1 := cmpf .ogt main_v39 main_v40
  let main_c_14 : IVec S_ 1 := constantI S_ 1 1#1
  let main_v42 : IVec S_ 1 := (fun x v => Host.reduce IntOp.andi x v reducesTo_S3_S_d0 h_S_) main_v41 main_c_14
  let main_v43 : IVec S_ 1 := andi main_v33 main_v42
  let main_v44 : FVec F S3x4096x128 .f32 := (fun l r => Host.dotGeneral dot_S3x4096x256_S3x128x256_S3x4096x128_2_2_1_1_0_0 none l r) main_arg0 main_arg3
  let main_v45 : FVec F S3x1x128 .f32 := broadcastInDim S3x1x128 ![0, 2] bcast_S3x128_S3x1x128_0_2 main_arg4
  let main_v46 : FVec F S3x4096x128 .f32 := broadcastInDim S3x4096x128 ![0, 1, 2] bcast_S3x1x128_S3x4096x128_0_1_2 main_v45
  let main_v47 : FVec F S3x4096x128 .f32 := addf main_v44 main_v46
  let main_v48 : FVec F S3x4096x128 .f32 := mulf main_v47 main_v47
  let main_cst_15 : FVec F S_ .f32 := constant S_ .f32 0x00000000#32
  let main_v49 : FVec F S3 .f32 := (fun x v => Host.reduceAdd x v reducesTo_S3x4096x128_S3_d1_2 h_S_) main_v48 main_cst_15
  let main_cst_16 : FVec F S_ .f32 := constant S_ .f32 0x00000000#32
  let main_v50 : FVec F S3 .f32 := broadcastInDim S3 ![] bcast_S_S3 main_cst_16
  let main_v51 : IVec S3 1 := cmpf .ogt main_v49 main_v50
  let main_c_17 : IVec S_ 1 := constantI S_ 1 1#1
  fn_part3 (F := F) main_v43 main_v51 main_c_17

def fn_part1 {F : FTy → Type} [FloatOps F] (main_arg0 : FVec F S3x4096x256 .f32) (main_arg1 : FVec F S3x128x256 .f32) (main_arg2 : FVec F S3x128 .f32) (main_arg3 : FVec F S3x128x256 .f32) (main_arg4 : FVec F S3x128 .f32) (main_arg5 : FVec F S3x128x256 .f32) (main_arg6 : FVec F S3x128 .f32) (main_v13 : IVec S_ 1) (main_v16 : IVec S3x128x256 1) : IVec S_ 1 :=
  let main_c_5 : IVec S_ 1 := constantI S_ 1 1#1
  let main_v17 : IVec S_ 1 := (fun x v => Host.reduce IntOp.andi x v reducesTo_S3x128x256_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x256 .f32 := Host.absf main_arg5
  let main_cst_8 : FVec F S_ .f32 := constant S_ .f32 0x7F800000#32
  let main_v25 : FVec F S3x128x256 .f32 := broadcastInDim S3x128x256 ![] bcast_S_S3x128x256 main_cst_8
  let main_v26 : IVec S3x128x256 1 := cmpf .olt main_v24 main_v25
  let main_c_9 : IVec S_ 1 := constantI S_ 1 1#1
  let main_v27 : IVec S_ 1 := (fun x v => Host.reduce IntOp.andi x v reducesTo_S3x128x256_S_d0_1_2 h_S_) main_v26 main_c_9
  let main_v28 : IVec S_ 1 := andi main_v23 main_v27
  let main_v29 : FVec F S3x128 .f32 := Host.absf main_arg6
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg0 main_arg1 main_arg2 main_arg3 main_arg4 main_v33

def fn {F : FTy → Type} [FloatOps F] (main_arg0 : FVec F S3x4096x256 .f32) (main_arg1 : FVec F S3x128x256 .f32) (main_arg2 : FVec F S3x128 .f32) (main_arg3 : FVec F S3x128x256 .f32) (main_arg4 : FVec F S3x128 .f32) (main_arg5 : FVec F S3x128x256 .f32) (main_arg6 : FVec F S3x128 .f32) : IVec S_ 1 :=
  let main_v0 : FVec F S3x4096x256 .f32 := Host.absf main_arg0
  let main_cst : FVec F S_ .f32 := constant S_ .f32 0x7F800000#32
  let main_v1 : FVec F S3x4096x256 .f32 := broadcastInDim S3x4096x256 ![] bcast_S_S3x4096x256 main_cst
  let main_v2 : IVec S3x4096x256 1 := cmpf .olt main_v0 main_v1
  let main_c : IVec S_ 1 := constantI S_ 1 1#1
  let main_v3 : IVec S_ 1 := (fun x v => Host.reduce IntOp.andi x v reducesTo_S3x4096x256_S_d0_1_2 h_S_) main_v2 main_c
  let main_v4 : FVec F S3x128x256 .f32 := Host.absf main_arg1
  let main_cst_0 : FVec F S_ .f32 := constant S_ .f32 0x7F800000#32
  let main_v5 : FVec F S3x128x256 .f32 := broadcastInDim S3x128x256 ![] bcast_S_S3x128x256 main_cst_0
  let main_v6 : IVec S3x128x256 1 := cmpf .olt main_v4 main_v5
  let main_c_1 : IVec S_ 1 := constantI S_ 1 1#1
  let main_v7 : IVec S_ 1 := (fun x v => Host.reduce IntOp.andi x v reducesTo_S3x128x256_S_d0_1_2 h_S_) main_v6 main_c_1
  let main_v8 : IVec S_ 1 := andi main_v3 main_v7
  let main_v9 : FVec F S3x128 .f32 := Host.absf main_arg2
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x256 .f32 := Host.absf main_arg3
  let main_cst_4 : FVec F S_ .f32 := constant S_ .f32 0x7F800000#32
  let main_v15 : FVec F S3x128x256 .f32 := broadcastInDim S3x128x256 ![] bcast_S_S3x128x256 main_cst_4
  let main_v16 : IVec S3x128x256 1 := cmpf .olt main_v14 main_v15
  fn_part1 (F := F) main_arg0 main_arg1 main_arg2 main_arg3 main_arg4 main_arg5 main_arg6 main_v13 main_v16
-- ==== Kernel.lean ====
abbrev S3x4096x256 : Shape := ⟨3, ![3, 4096, 256]⟩
abbrev S3x128x256 : Shape := ⟨3, ![3, 128, 256]⟩
abbrev S3x128 : Shape := ⟨2, ![3, 128]⟩
abbrev S3x256x128 : Shape := ⟨3, ![3, 256, 128]⟩
abbrev S3x1x128 : Shape := ⟨3, ![3, 1, 128]⟩
abbrev S3x4096x128 : Shape := ⟨3, ![3, 4096, 128]⟩
abbrev S1x4096x256 : Shape := ⟨3, ![1, 4096, 256]⟩
abbrev S1x256x128 : Shape := ⟨3, ![1, 256, 128]⟩
abbrev S1x1x128 : Shape := ⟨3, ![1, 1, 128]⟩
abbrev S1x4096x128 : Shape := ⟨3, ![1, 4096, 128]⟩
abbrev S4096x256 : Shape := ⟨2, ![4096, 256]⟩
abbrev S256x128 : Shape := ⟨2, ![256, 128]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S3x4096x1 : Shape := ⟨3, ![3, 4096, 1]⟩
abbrev S1x256x1 : Shape := ⟨3, ![1, 256, 1]⟩
abbrev S256x4096 : Shape := ⟨2, ![256, 4096]⟩
abbrev S256 : Shape := ⟨1, ![256]⟩
abbrev S256x1 : Shape := ⟨2, ![256, 1]⟩
abbrev S1x4096x1 : Shape := ⟨3, ![1, 4096, 1]⟩

abbrev nBuf : Space → Nat
  | .hbm => 18
  | .vmem => 36
  | .smem => 0
  | _ => 0

abbrev bufTy : (tb : Table) → Fin (tcTables nBuf tb) → BufTy
  | .hbm, ⟨0, _⟩ => ⟨S3x4096x256, .f32⟩
  | .hbm, ⟨1, _⟩ => ⟨S3x128x256, .f32⟩
  | .hbm, ⟨2, _⟩ => ⟨S3x128, .f32⟩
  | .hbm, ⟨3, _⟩ => ⟨S3x128x256, .f32⟩
  | .hbm, ⟨4, _⟩ => ⟨S3x128, .f32⟩
  | .hbm, ⟨5, _⟩ => ⟨S3x128x256, .f32⟩
  | .hbm, ⟨6, _⟩ => ⟨S3x128, .f32⟩
  | .hbm, ⟨7, _⟩ => ⟨S3x256x128, .f32⟩
  | .hbm, ⟨8, _⟩ => ⟨S3x256x128, .f32⟩
  | .hbm, ⟨9, _⟩ => ⟨S3x256x128, .f32⟩
  | .hbm, ⟨10, _⟩ => ⟨S3x1x128, .f32⟩
  | .hbm, ⟨11, _⟩ => ⟨S3x1x128, .f32⟩
  | .hbm, ⟨12, _⟩ => ⟨S3x1x128, .f32⟩
  | .hbm, ⟨13, _⟩ => ⟨S3x4096x128, .f32⟩
  | .hbm, ⟨14, _⟩ => ⟨S3x4096x128, .f32⟩
  | .hbm, ⟨15, _⟩ => ⟨S3x4096x128, .f32⟩
  | .hbm, ⟨16, _⟩ => ⟨S3x4096x1, .f32⟩
  | .hbm, ⟨17, _⟩ => ⟨S3x4096x128, .f32⟩
  | .local _ .vmem, ⟨0, _⟩ => ⟨S1x4096x256, .f32⟩
  | .local _ .vmem, ⟨1, _⟩ => ⟨S1x4096x256, .f32⟩
  | .local _ .vmem, ⟨2, _⟩ => ⟨S1x256x128, .f32⟩
  | .local _ .vmem, ⟨3, _⟩ => ⟨S1x256x128, .f32⟩
  | .local _ .vmem, ⟨4, _⟩ => ⟨S1x1x128, .f32⟩
  | .local _ .vmem, ⟨5, _⟩ => ⟨S1x1x128, .f32⟩
  | .local _ .vmem, ⟨6, _⟩ => ⟨S1x256x128, .f32⟩
  | .local _ .vmem, ⟨7, _⟩ => ⟨S1x256x128, .f32⟩
  | .local _ .vmem, ⟨8, _⟩ => ⟨S1x1x128, .f32⟩
  | .local _ .vmem, ⟨9, _⟩ => ⟨S1x1x128, .f32⟩
  | .local _ .vmem, ⟨10, _⟩ => ⟨S1x256x128, .f32⟩
  | .local _ .vmem, ⟨11, _⟩ => ⟨S1x256x128, .f32⟩
  | .local _ .vmem, ⟨12, _⟩ => ⟨S1x1x128, .f32⟩
  | .local _ .vmem, ⟨13, _⟩ => ⟨S1x1x128, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | .local _ .vmem, ⟨18, _⟩ => ⟨S1x4096x128, .f32⟩
  | .local _ .vmem, ⟨19, _⟩ => ⟨S1x4096x128, .f32⟩
  | .local _ .vmem, ⟨20, _⟩ => ⟨S1x256x128, .f32⟩
  | .local _ .vmem, ⟨21, _⟩ => ⟨S1x256x128, .f32⟩
  | .local _ .vmem, ⟨22, _⟩ => ⟨S1x4096x128, .f32⟩
  | .local _ .vmem, ⟨23, _⟩ => ⟨S1x4096x128, .f32⟩
  | .local _ .vmem, ⟨24, _⟩ => ⟨S1x256x1, .f32⟩
  | .local _ .vmem, ⟨25, _⟩ => ⟨S1x256x1, .f32⟩
  | .local _ .vmem, ⟨26, _⟩ => ⟨S1x256x128, .f32⟩
  | .local _ .vmem, ⟨27, _⟩ => ⟨S1x256x128, .f32⟩
  | .local _ .vmem, ⟨28, _⟩ => ⟨S1x4096x128, .f32⟩
  | .local _ .vmem, ⟨29, _⟩ => ⟨S1x4096x128, .f32⟩
  | .local _ .vmem, ⟨30, _⟩ => ⟨S1x4096x128, .f32⟩
  | .local _ .vmem, ⟨31, _⟩ => ⟨S1x4096x128, .f32⟩
  | .local _ .vmem, ⟨32, _⟩ => ⟨S1x4096x1, .f32⟩
  | .local _ .vmem, ⟨33, _⟩ => ⟨S1x4096x1, .f32⟩
  | .local _ .vmem, ⟨34, _⟩ => ⟨S1x256x128, .f32⟩
  | .local _ .vmem, ⟨35, _⟩ => ⟨S1x256x128, .f32⟩
  | _, _ => ⟨S3x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![3, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![3, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x4096x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S3x128x256_S3x256x128_0_2_1 : S3x128x256.Transposes [0, 2, 1] S3x256x128
  bcast_S3x128_S3x1x128_0_2 : S3x128.BroadcastsInDim S3x1x128 (![0, 2] : Fin 2 → Fin S3x1x128.rank)
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S4096x128 : S1x128.Broadcasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  broadcasts_S1x1_S4096x128 : S1x1.Broadcasts S4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  shapeCasts_S4096x128_S1x4096x128 : S4096x128.ShapeCasts S1x4096x128
  reduces_S256x4096_S256 : S256x4096.Reduces [1] S256
  shapeCasts_S256_S256x1 : S256.ShapeCasts S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  broadcasts_S4096x1_S4096x128 : S4096x1.Broadcasts S4096x128
  shapeCasts_S256x128_S1x256x128 : S256x128.ShapeCasts S1x256x128
  dot_S4096x256_S256x128_S4096x128_1_0_0_1_n_n_wf : DotDims.WF S4096x256 S256x128 S4096x128 [1] [0] [0] [1] [] []
  dot_S256x128_S4096x128_S256x4096_1_1_0_0_n_n_wf : DotDims.WF S256x128 S4096x128 S256x4096 [1] [1] [0] [0] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S3x4096x256.size a
  hwx0_0 : ∀ i : grid0.Coords, EltTy.bits .f32 = 32 ∨ (Rect.block (s := S3x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S3x256x128.size a
  hwx0_1 : ∀ i : grid0.Coords, EltTy.bits .f32 = 32 ∨ (Rect.block (s := S3x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S3x1x128.size a
  hwx0_2 : ∀ i : grid0.Coords, EltTy.bits .f32 = 32 ∨ (Rect.block (s := S3x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S3x256x128.size a
  hwx0_3 : ∀ i : grid0.Coords, EltTy.bits .f32 = 32 ∨ (Rect.block (s := S3x256x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S3x1x128.size a
  hwx0_4 : ∀ i : grid0.Coords, EltTy.bits .f32 = 32 ∨ (Rect.block (s := S3x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S3x256x128.size a
  hwx0_5 : ∀ i : grid0.Coords, EltTy.bits .f32 = 32 ∨ (Rect.block (s := S3x256x128) S1x256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S3x1x128.size a
  hwx0_6 : ∀ i : grid0.Coords, EltTy.bits .f32 = 32 ∨ (Rect.block (s := S3x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096x128.size a ≤ S3x4096x128.size a
  hwx0_7 : ∀ i : grid0.Coords, EltTy.bits .f32 = 32 ∨ (Rect.block (s := S3x4096x128) S1x4096x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x4096x128.size a ≤ S3x4096x128.size a
  hwx0_8 : ∀ i : grid0.Coords, EltTy.bits .f32 = 32 ∨ (Rect.block (s := S3x4096x128) S1x4096x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x4096x128.size a ≤ S3x4096x128.size a
  hwx0_9 : ∀ i : grid0.Coords, EltTy.bits .f32 = 32 ∨ (Rect.block (s := S3x4096x128) S1x4096x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S3x4096x128.size a
  hwx1_0 : ∀ i : grid1.Coords, EltTy.bits .f32 = 32 ∨ (Rect.block (s := S3x4096x128) S1x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x128.size a ≤ S3x4096x128.size a
  hwx1_1 : ∀ i : grid1.Coords, EltTy.bits .f32 = 32 ∨ (Rect.block (s := S3x4096x128) S1x4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S3x4096x1.size a
  hwx1_2 : ∀ i : grid1.Coords, EltTy.bits .f32 = 32 ∨ (Rect.block (s := S3x4096x1) S1x256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x128.size a ≤ S3x4096x128.size a
  hwx2_0 : ∀ i : grid2.Coords, EltTy.bits .f32 = 32 ∨ (Rect.block (s := S3x4096x128) S1x256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096x128.size a ≤ S3x4096x128.size a
  hwx2_1 : ∀ i : grid2.Coords, EltTy.bits .f32 = 32 ∨ (Rect.block (s := S3x4096x128) S1x4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x4096x128.size a ≤ S3x4096x128.size a
  hwx2_2 : ∀ i : grid2.Coords, EltTy.bits .f32 = 32 ∨ (Rect.block (s := S3x4096x128) S1x4096x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x4096x1.size a ≤ S3x4096x1.size a
  hwx2_3 : ∀ i : grid2.Coords, EltTy.bits .f32 = 32 ∨ (Rect.block (s := S3x4096x1) S1x4096x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x128.size a ≤ S3x4096x128.size a
  hwx2_4 : ∀ i : grid2.Coords, EltTy.bits .f32 = 32 ∨ (Rect.block (s := S3x4096x128) S1x256x128.size (cc2_transform_4 i) (hinb2_4 i)).WholeWords (EltTy.packing .f32)

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x4096x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x4096x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6_0) S1x256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S1x4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_2) S1x4096x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x4096x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S3x4096x256 : Shape := ⟨3, ![3, 4096, 256]⟩
abbrev S3x128x256 : Shape := ⟨3, ![3, 128, 256]⟩
abbrev S3x128 : Shape := ⟨2, ![3, 128]⟩
abbrev S3x4096x128 : Shape := ⟨3, ![3, 4096, 128]⟩
abbrev S3x1x128 : Shape := ⟨3, ![3, 1, 128]⟩
abbrev S_ : Shape := ⟨0, ![]⟩
abbrev S3 : Shape := ⟨1, ![3]⟩
abbrev S3x1x1 : Shape := ⟨3, ![3, 1, 1]⟩
abbrev S3x4096x4096 : Shape := ⟨3, ![3, 4096, 4096]⟩
abbrev S3x4096 : Shape := ⟨2, ![3, 4096]⟩
abbrev S3x1x4096 : Shape := ⟨3, ![3, 1, 4096]⟩

abbrev nBuf : Space → Nat
  | .hbm => 48
  | .vmem => 0
  | .smem => 0
  | _ => 0

abbrev bufTy : (tb : Table) → Fin (tcTables nBuf tb) → BufTy
  | .hbm, ⟨0, _⟩ => ⟨S3x4096x256, .f32⟩
  | .hbm, ⟨1, _⟩ => ⟨S3x128x256, .f32⟩
  | .hbm, ⟨2, _⟩ => ⟨S3x128, .f32⟩
  | .hbm, ⟨3, _⟩ => ⟨S3x128x256, .f32⟩
  | .hbm, ⟨4, _⟩ => ⟨S3x128, .f32⟩
  | .hbm, ⟨5, _⟩ => ⟨S3x128x256, .f32⟩
  | .hbm, ⟨6, _⟩ => ⟨S3x128, .f32⟩
  | .hbm, ⟨7, _⟩ => ⟨S3x4096x128, .f32⟩
  | .hbm, ⟨8, _⟩ => ⟨S3x1x128, .f32⟩
  | .hbm, ⟨9, _⟩ => ⟨S3x4096x128, .f32⟩
  | .hbm, ⟨10, _⟩ => ⟨S3x4096x128, .f32⟩
  | .hbm, ⟨11, _⟩ => ⟨S3x4096x128, .f32⟩
  | .hbm, ⟨12, _⟩ => ⟨S3x1x128, .f32⟩
  | .hbm, ⟨13, _⟩ => ⟨S3x4096x128, .f32⟩
  | .hbm, ⟨14, _⟩ => ⟨S3x4096x128, .f32⟩
  | .hbm, ⟨15, _⟩ => ⟨S3x4096x128, .f32⟩
  | .hbm, ⟨16, _⟩ => ⟨S3x1x128, .f32⟩
  | .hbm, ⟨17, _⟩ => ⟨S3x4096x128, .f32⟩
  | .hbm, ⟨18, _⟩ => ⟨S3x4096x128, .f32⟩
  | .hbm, ⟨19, _⟩ => ⟨S3x4096x128, .f32⟩
  | .hbm, ⟨20, _⟩ => ⟨S_, .f32⟩
  | .hbm, ⟨21, _⟩ => ⟨S3, .f32⟩
  | .hbm, ⟨22, _⟩ => ⟨S3x1x1, .f32⟩
  | .hbm, ⟨23, _⟩ => ⟨S3x1x1, .f32⟩
  | .hbm, ⟨24, _⟩ => ⟨S3x4096x128, .f32⟩
  | .hbm, ⟨25, _⟩ => ⟨S3x4096x128, .f32⟩
  | .hbm, ⟨26, _⟩ => ⟨S3x4096x128, .f32⟩
  | .hbm, ⟨27, _⟩ => ⟨S_, .f32⟩
  | .hbm, ⟨28, _⟩ => ⟨S3, .f32⟩
  | .hbm, ⟨29, _⟩ => ⟨S3x1x1, .f32⟩
  | .hbm, ⟨30, _⟩ => ⟨S3x1x1, .f32⟩
  | .hbm, ⟨31, _⟩ => ⟨S3x4096x128, .f32⟩
  | .hbm, ⟨32, _⟩ => ⟨S3x4096x128, .f32⟩
  | .hbm, ⟨33, _⟩ => ⟨S3x4096x4096, .f32⟩
  | .hbm, ⟨34, _⟩ => ⟨S3x4096x4096, .f32⟩
  | .hbm, ⟨35, _⟩ => ⟨S3x4096x4096, .f32⟩
  | .hbm, ⟨36, _⟩ => ⟨S_, .f32⟩
  | .hbm, ⟨37, _⟩ => ⟨S3x4096x4096, .f32⟩
  | .hbm, ⟨38, _⟩ => ⟨S3x4096x4096, .f32⟩
  | .hbm, ⟨39, _⟩ => ⟨S_, .f32⟩
  | .hbm, ⟨40, _⟩ => ⟨S3x4096x4096, .f32⟩
  | .hbm, ⟨41, _⟩ => ⟨S3x4096x4096, .f32⟩
  | .hbm, ⟨42, _⟩ => ⟨S_, .f32⟩
  | .hbm, ⟨43, _⟩ => ⟨S3x4096, .f32⟩
  | .hbm, ⟨44, _⟩ => ⟨S3x1x4096, .f32⟩
  | .hbm, ⟨45, _⟩ => ⟨S3x4096x4096, .f32⟩
  | .hbm, ⟨46, _⟩ => ⟨S3x4096x4096, .f32⟩
  | .hbm, ⟨47, _⟩ => ⟨S3x4096x128, .f32⟩
  | _, _ => ⟨S3x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S3x128_S3x1x128_0_2 : S3x128.BroadcastsInDim S3x1x128 (![0, 2] : Fin 2 → Fin S3x1x128.rank)
  bcast_S3x1x128_S3x4096x128_0_1_2 : S3x1x128.BroadcastsInDim S3x4096x128 (![0, 1, 2] : Fin 3 → Fin S3x4096x128.rank)
  reducesTo_S3x4096x128_S3_d1_2 : S3x4096x128.ReducesTo [1, 2] S3
  h_S_ : 0 < S_.numel
  bcast_S3_S3x1x1_0 : S3.BroadcastsInDim S3x1x1 (![0] : Fin 1 → Fin S3x1x1.rank)
  bcast_S3x1x1_S3x4096x128_0_1_2 : S3x1x1.BroadcastsInDim S3x4096x128 (![0, 1, 2] : Fin 3 → Fin S3x4096x128.rank)
  bcast_S_S3x4096x4096 : S_.BroadcastsInDim S3x4096x4096 (![] : Fin 0 → Fin S3x4096x4096.rank)
  reducesTo_S3x4096x4096_S3x4096_d2 : S3x4096x4096.ReducesTo [2] S3x4096
  bcast_S3x4096_S3x1x4096_0_2 : S3x4096.BroadcastsInDim S3x1x4096 (![0, 2] : Fin 2 → Fin S3x1x4096.rank)
  bcast_S3x1x4096_S3x4096x4096_0_1_2 : S3x1x4096.BroadcastsInDim S3x4096x4096 (![0, 1, 2] : Fin 3 → Fin S3x4096x4096.rank)
  dot_S3x4096x256_S3x128x256_S3x4096x128_2_2_1_1_0_0_wf : DotDims.WF S3x4096x256 S3x128x256 S3x4096x128 [2] [2] [1] [1] [0] [0]
  dot_S3x4096x128_S3x4096x128_S3x4096x4096_2_2_1_1_0_0_wf : DotDims.WF S3x4096x128 S3x4096x128 S3x4096x4096 [2] [2] [1] [1] [0] [0]
  dot_S3x4096x4096_S3x4096x128_S3x4096x128_2_1_1_2_0_0_wf : DotDims.WF S3x4096x4096 S3x4096x128 S3x4096x128 [2] [1] [1] [2] [0] [0]

variable [Facts₀]

def dot_S3x4096x256_S3x128x256_S3x4096x128_2_2_1_1_0_0 : DotDims S3x4096x256 S3x128x256 S3x4096x128 where
  lhsContracting := [2]
  rhsContracting := [2]
  lhsNonContracting := [1]
  rhsNonContracting := [1]
  lhsBatch := [0]
  rhsBatch := [0]
  wf := dot_S3x4096x256_S3x128x256_S3x4096x128_2_2_1_1_0_0_wf
def dot_S3x4096x128_S3x4096x128_S3x4096x4096_2_2_1_1_0_0 : DotDims S3x4096x128 S3x4096x128 S3x4096x4096 where
  lhsContracting := [2]
  rhsContracting := [2]
  lhsNonContracting := [1]
  rhsNonContracting := [1]
  lhsBatch := [0]
  rhsBatch := [0]
  wf := dot_S3x4096x128_S3x4096x128_S3x4096x4096_2_2_1_1_0_0_wf
def dot_S3x4096x4096_S3x4096x128_S3x4096x128_2_1_1_2_0_0 : DotDims S3x4096x4096 S3x4096x128 S3x4096x128 where
  lhsContracting := [2]
  rhsContracting := [1]
  lhsNonContracting := [1]
  rhsNonContracting := [2]
  lhsBatch := [0]
  rhsBatch := [0]
  wf := dot_S3x4096x4096_S3x4096x128_S3x4096x128_2_1_1_2_0_0_wf

class Facts : Prop extends Facts₀ where

variable [Facts]
-- ==== Proof.Spec.lean ====
/-
  The mathematics both programs compute, stated once over the extended reals, away from either program's text.

  Three views; in each, 4096 rows of 256 features are projected to 128 columns three times (queries, keys, values:
  `x · Wᵀ + b`). Queries and keys are each divided by their Frobenius norm over the whole view (the square root of the
  sum of all 4096 × 128 squares). Every query row `n` meets every key row `m` in the gate
  `σ(⟨q n, k m⟩)`, `σ t = 1 / (1 + e^(−t))`; `rowsum m` is the sum of row `m`'s gates over all key rows; and the
  result at row `n`, column `d` is `∑ m, gate n m · value m d / rowsum m`: the normaliser belongs to the
  SUMMED row `m`, not to the output row.

  The kernel multiplies by the reciprocal square root and divides the values by the row sums before the last
  product; the reference divides by the square root and divides the gates. The two agree where the sums of
  squares are positive reals (`mul_rsqrt_eq_div_sqrt`) and the row sums are not zero (`div_mul_eq_mul_div`).
-/
import Idealize.ShloMosaic.PureOps.Ideal
import Idealize.ShloMosaic.Lib.ValueIdx

noncomputable section

open Idealize.ShloMosaic Idealize.ShloMosaic.ValueIdx
open scoped BigOperators

namespace Cert.SigmoidAttn

/-- A rank-3 array of extended reals. -/
abbrev Arr3 (a b c : Nat) := (⟨3, ![a, b, c]⟩ : Shape).Idx → EReal
/-- A rank-2 array of extended reals. -/
abbrev Arr2 (a b : Nat) := (⟨2, ![a, b]⟩ : Shape).Idx → EReal
/-- One value per view, row and column. -/
abbrev Rows := Fin 3 → Fin 4096 → Fin 128 → EReal

/-- A view's rows projected by a weight stored `[view, column, feature]` and a bias stored `[view, column]`. -/
def proj (X : Arr3 3 4096 256) (W : Arr3 3 128 256) (b : Arr2 3 128) : Rows :=
  fun v n o => (∑ k : Fin 256, X (ix3 v n k) * W (ix3 v o k)) + b (ix2 v o)

/-- The same projection from the weight stored transposed, `[view, feature, column]`, and the bias stored as a
    one-row slab `[view, 1, column]`. -/
def projT (X : Arr3 3 4096 256) (WT : Arr3 3 256 128) (b : Arr3 3 1 128) : Rows :=
  fun v n o => (∑ k : Fin 256, X (ix3 v n k) * WT (ix3 v k o)) + b (ix3 v 0 o)

/-- A view's sum of squares, rows outermost. -/
def sumsq (P : Rows) (v : Fin 3) : EReal := ∑ n : Fin 4096, ∑ o : Fin 128, P v n o * P v n o

/-- Each entry times the reciprocal square root of its view's sum of squares. -/
def normed (P : Rows) : Rows := fun v n o => P v n o * Ideal.rsqrt (sumsq P v)

/-- Each entry divided by the square root of its view's sum of squares. -/
def normedDiv (P : Rows) : Rows := fun v n o => Ideal.div (P v n o) (Ideal.sqrt (sumsq P v))

/-- The gate between query row `n` and key row `m`. -/
def gate (A B : Rows) (v : Fin 3) (n m : Fin 4096) : EReal := Ideal.logistic (∑ d : Fin 128, A v n d * B v m d)

/-- Row `n`'s gates summed over every key row. -/
def rowsum (A B : Rows) (v : Fin 3) (n : Fin 4096) : EReal := ∑ m : Fin 4096, gate A B v n m

/-- The gates against the values, each value row first divided by `R` at that row. -/
def mix (A B C : Rows) (R : Fin 3 → Fin 4096 → EReal) : Rows :=
  fun v n d => ∑ m : Fin 4096, gate A B v n m * Ideal.div (C v m d) (R v m)

/-- The gates, each first divided by `R` at the summed row, against the values. -/
def mixDiv (A B C : Rows) (R : Fin 3 → Fin 4096 → EReal) : Rows :=
  fun v n d => ∑ m : Fin 4096, Ideal.div (gate A B v n m) (R v m) * C v m d

end Cert.SigmoidAttn

end
-- ==== Proof.HostPre.lean ====
import proofs.«423141_j89103391523710_3_alg».proof.Proof.Gen.KernelIdeal.Frame
import proofs.«423141_j89103391523710_3_alg».proof.Proof.Spec
import Idealize.ShloMosaic.Lib.Pipeline.Value
import Idealize.ShloMosaic.Lib.StableHlo.Run
set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SigmoidAttn

/-! What the first pallas_call finds in its operand arrays: the host has transposed each weight from
    `[view, column, feature]` to `[view, feature, column]` and laid each bias `[view, column]` out as a one-row slab
    `[view, 1, column]`; the activations are the argument itself. So the projection the kernel takes from the
    transposed weight and the slab is the projection `x · Wᵀ + b` of the arguments. -/

namespace Cert.KernelIdeal.HostPre

open Idealize.ShloMosaic.StableHlo

variable (m : (ℓ : Loc nD τ sig) → Buf (Elt Ideal) ℓ) (ρ : Dev nD → PrngReg)

/-- The activations reach the first call as launched. -/
theorem entry_x (c : Dev nD) : (V1 m ρ c main_arg0 : S3x4096x256.Idx → EReal) = m ((c : Thread nD τ).loc main_arg0) := by
  dsimp only [V1, W1, W0, hostOps0]; after_results

/-- A transposed weight at `(v, k, o)` is the weight at `(v, o, k)`. -/
theorem transposed_apply (W : S3x128x256.Idx → EReal) (v : Fin 3) (k : Fin 256) (o : Fin 128) :
    transpose S3x256x128 [0, 2, 1] W transposes_S3x128x256_S3x256x128_0_2_1 (ix3 v k o) = W (ix3 v o k) :=
  transpose_apply [0, 2, 1] W transposes_S3x128x256_S3x256x128_0_2_1 (ix3 v k o) (ix3 v o k) (fun b => match b with
    | ⟨0, _⟩ => rfl
    | ⟨1, _⟩ => rfl
    | ⟨2, _⟩ => rfl)

/-- A bias slab at `(v, 0, o)` is the bias at `(v, o)`. -/
theorem slab_apply (b : S3x128.Idx → EReal) (v : Fin 3) (o : Fin 128) :
    broadcastInDim S3x1x128 ![0, 2] bcast_S3x128_S3x1x128_0_2 b (ix3 v 0 o) = b (ix2 v o) :=
  broadcastInDim_apply _ bcast_S3x128_S3x1x128_0_2 b (ix3 v 0 o) (ix2 v o) (fun a => match a with
    | ⟨0, _⟩ => by show v.val = if (3 : Nat) = 1 then 0 else v.val; rw [if_neg (by decide)]
    | ⟨1, _⟩ => by show o.val = if (128 : Nat) = 1 then 0 else o.val; rw [if_neg (by decide)])

theorem entry_wq (c : Dev nD) : (V1 m ρ c main_v0 : S3x256x128.Idx → EReal)
    = transpose S3x256x128 [0, 2, 1] (m ((c : Thread nD τ).loc main_arg1)) transposes_S3x128x256_S3x256x128_0_2_1 := by
  dsimp only [V1, W1, W0, hostOps0]; after_results
theorem entry_wk (c : Dev nD) : (V1 m ρ c main_v1 : S3x256x128.Idx → EReal)
    = transpose S3x256x128 [0, 2, 1] (m ((c : Thread nD τ).loc main_arg3)) transposes_S3x128x256_S3x256x128_0_2_1 := by
  dsimp only [V1, W1, W0, hostOps0]; after_results
theorem entry_wv (c : Dev nD) : (V1 m ρ c main_v2 : S3x256x128.Idx → EReal)
    = transpose S3x256x128 [0, 2, 1] (m ((c : Thread nD τ).loc main_arg5)) transposes_S3x128x256_S3x256x128_0_2_1 := by
  dsimp only [V1, W1, W0, hostOps0]; after_results
theorem entry_bq (c : Dev nD) : (V1 m ρ c main_v3 : S3x1x128.Idx → EReal)
    = broadcastInDim S3x1x128 ![0, 2] bcast_S3x128_S3x1x128_0_2 (m ((c : Thread nD τ).loc main_arg2)) := by
  dsimp only [V1, W1, W0, hostOps0]; after_results
theorem entry_bk (c : Dev nD) : (V1 m ρ c main_v4 : S3x1x128.Idx → EReal)
    = broadcastInDim S3x1x128 ![0, 2] bcast_S3x128_S3x1x128_0_2 (m ((c : Thread nD τ).loc main_arg4)) := by
  dsimp only [V1, W1, W0, hostOps0]; after_results
theorem entry_bv (c : Dev nD) : (V1 m ρ c main_v5 : S3x1x128.Idx → EReal)
    = broadcastInDim S3x1x128 ![0, 2] bcast_S3x128_S3x1x128_0_2 (m ((c : Thread nD τ).loc main_arg6)) := by
  dsimp only [V1, W1, W0, hostOps0]; after_results

/-- The projection from a transposed weight and a slab is the projection from the weight and the bias. -/
theorem projT_transposed (X : S3x4096x256.Idx → EReal) (W : S3x128x256.Idx → EReal) (b : S3x128.Idx → EReal) :
    projT X (transpose S3x256x128 [0, 2, 1] W transposes_S3x128x256_S3x256x128_0_2_1)
      (broadcastInDim S3x1x128 ![0, 2] bcast_S3x128_S3x1x128_0_2 b) = proj X W b := by
  funext v n o
  unfold projT proj
  rw [slab_apply]
  exact congrArg (· + b (ix2 v o)) (Finset.sum_congr rfl fun k _ => by rw [transposed_apply])

theorem queries_proj (c : Dev nD) : projT (V1 m ρ c main_arg0) (V1 m ρ c main_v0) (V1 m ρ c main_v3)
    = proj (m ((c : Thread nD τ).loc main_arg0)) (m ((c : Thread nD τ).loc main_arg1)) (m ((c : Thread nD τ).loc main_arg2)) := by
  rw [entry_x, entry_wq, entry_bq]; exact projT_transposed _ _ _
theorem keys_proj (c : Dev nD) : projT (V1 m ρ c main_arg0) (V1 m ρ c main_v1) (V1 m ρ c main_v4)
    = proj (m ((c : Thread nD τ).loc main_arg0)) (m ((c : Thread nD τ).loc main_arg3)) (m ((c : Thread nD τ).loc main_arg4)) := by
  rw [entry_x, entry_wk, entry_bk]; exact projT_transposed _ _ _
theorem values_proj (c : Dev nD) : projT (V1 m ρ c main_arg0) (V1 m ρ c main_v2) (V1 m ρ c main_v5)
    = proj (m ((c : Thread nD τ).loc main_arg0)) (m ((c : Thread nD τ).loc main_arg5)) (m ((c : Thread nD τ).loc main_arg6)) := by
  rw [entry_x, entry_wv, entry_bv]; exact projT_transposed _ _ _

end Cert.KernelIdeal.HostPre

end
-- ==== Proof.RegionA.lean ====
/-
  What the first call leaves in its three output arrays, for any contents of the buffers when the call is entered.

  The call has one grid point per view (three of them). At point `t` every window's block is block `(t, 0, 0)` of its
  array and spans the array's two trailing axes whole, so a block IS view `t` of its array: 4096 rows of 256 features,
  a 256 × 128 weight (features by columns), a one-row bias slab. From these the body forms three projections
  `x · w + b` (each entry `(n, o)` the sum over the 256 features of row `n` against column `o`, plus bias entry `o`),
  stores the value projection as it is, and stores the query and key projections with every entry multiplied by the
  reciprocal square root of the sum of ALL 4096 × 128 squares of that projection — the squares summed along each row
  first, the 4096 row sums then summed. So an entry of the normalised outputs depends on every row of its view, and on
  no other view.

  Three steps. (1) Each stored value read at an entry, over arbitrary blocks: the product as a sum over features, the
  bias row repeated down the rows, the two-stage sum of squares as one double sum. (2) A block read at an entry is the
  array read at the same entry of view `t`; hence what point `t` writes back is view `t` of one function of the whole
  arrays (`projT`, `normed` of the specification). (3) The three blocks cover each output array, so the array ends
  holding that function.
-/
import proofs.«423141_j89103391523710_3_alg».proof.Proof.Gen.KernelIdeal.Frame
import proofs.«423141_j89103391523710_3_alg».proof.Proof.Spec
import Idealize.ShloMosaic.Lib.Pipeline.Value
import Idealize.ShloMosaic.Lib.ValueLayout
import Idealize.ShloMosaic.PureOps.Ideal.Laws
set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SigmoidAttn

namespace Cert.KernelIdeal.RegionA
variable (V : (c : Dev nD) → (b : Ref sig .tc) → Buf (Elt Ideal) ((c : Thread nD τ).loc b))

/-! ## The product of a row block and a weight block at an entry -/

/-- The left operand of the product at output entry `(n, o)` and contraction index `q` sits in row `n`. -/
theorem lhs_row (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
/-- … at the feature the contraction index names. -/
theorem lhs_feature (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
/-- The right operand sits at that same feature … -/
theorem rhs_feature (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
/-- … in column `o`. -/
theorem rhs_column (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- A 4096 × 256 block times a 256 × 128 block, accumulated into zeros, is at entry `(n, o)` the sum over the 256
    features of row `n` of the first against column `o` of the second. -/
theorem matmul_entry (A : FVec Ideal S4096x256 .bf16) (B : FVec Ideal S256x128 .bf16) (n : Fin 4096) (o : Fin 128) :
    matmul dot_S4096x256_S256x128_S4096x128_1_0_0_1_n_n none A B (constant (F := Ideal) S4096x128 .f32 0x00000000#32) (ix2 n o)
      = ∑ k : Fin 256, A (ix2 n k) * B (ix2 k o) := by
  simp only [matmul]
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 n o) ((ValueIdx.contrEquiv1 dot_S4096x256_S256x128_S4096x128_1_0_0_1_n_n 256 rfl rfl).symm k) = ix2 n k := funext fun a => Fin.ext (by
    match a with
    | ⟨0, _⟩ => exact lhs_row _ _
    | ⟨1, _⟩ => exact (lhs_feature _ _).trans hk)
  have er : dot_S4096x256_S256x128_S4096x128_1_0_0_1_n_n.rhsIdx (ix2 n o) ((ValueIdx.contrEquiv1 dot_S4096x256_S256x128_S4096x128_1_0_0_1_n_n 256 rfl rfl).symm k) = ix2 k o := funext fun a => Fin.ext (by
    match a with
    | ⟨0, _⟩ => exact (rhs_feature _ _).trans hk
    | ⟨1, _⟩ => exact rhs_column _ _)
  rw [el, er]

/-! ## The projection of one view's block -/

/-- One view's block of rows `x` (a `[1, 4096, 256]` slab) against a weight block `w` (`[1, 256, 128]`, features by
    columns) plus a bias row `b` (`[1, 1, 128]`): entry `(n, o)` depends on row `n` of `x`, column `o` of `w` and
    entry `o` of `b`. -/
def blockProj (x : Vec Ideal S1x4096x256 .f32) (w : Vec Ideal S1x256x128 .f32) (b : Vec Ideal S1x1x128 .f32)
    (n : Fin 4096) (o : Fin 128) : EReal :=
  (∑ k : Fin 256, x (ix3 (0 : Fin 1) n k) * w (ix3 (0 : Fin 1) k o)) + b (ix3 (0 : Fin 1) (0 : Fin 1) o)

/-- The row block with its unit axis dropped and rounded to the narrower format (no rounding on the extended reals)
    reads the slab's row. -/
theorem rows_entry (x : Vec Ideal S1x4096x256 .f32) (n : Fin 4096) (k : Fin 256) :
    k0_pay4 x (ix2 n k) = x (ix3 (0 : Fin 1) n k) := by
  unfold k0_pay4
  exact shapeCast_1ab_ab_apply x shapeCasts_S1x4096x256_S4096x256 n k

/-- The weight block likewise. -/
theorem weight_entry (w : Vec Ideal S1x256x128 .f32) (k : Fin 256) (o : Fin 128) :
    (truncf .bf16 (shapeCast S256x128 w shapeCasts_S1x256x128_S256x128) bitsLt_bf16_f32 : FVec Ideal S256x128 .bf16) (ix2 k o)
      = w (ix3 (0 : Fin 1) k o) :=
  shapeCast_1ab_ab_apply w shapeCasts_S1x256x128_S256x128 k o

/-- The bias slab, its unit axis dropped and its one row repeated down the 4096 rows, reads entry `o` everywhere. -/
theorem bias_entry (b : Vec Ideal S1x1x128 .f32) (n : Fin 4096) (o : Fin 128) :
    broadcastTo S4096x128 (shapeCast S1x128 b shapeCasts_S1x1x128_S1x128) broadcasts_S1x128_S4096x128 (ix2 n o)
      = b (ix3 (0 : Fin 1) (0 : Fin 1) o) :=
  (broadcastTo_1b_ab_apply _ broadcasts_S1x128_S4096x128 n o).trans
    (shapeCast_1ab_ab_apply b shapeCasts_S1x1x128_S1x128 (0 : Fin 1) o)

/-- THE PROJECTION at an entry: the query projection's value is `blockProj` of its three blocks. -/
theorem proj_entry (x : Vec Ideal S1x4096x256 .f32) (w : Vec Ideal S1x256x128 .f32) (b : Vec Ideal S1x1x128 .f32)
    (n : Fin 4096) (o : Fin 128) : k0_pay5 x w b (ix2 n o) = blockProj x w b n o := by
  unfold k0_pay5 blockProj
  refine (addf_apply _ _ (ix2 n o)).trans ?_
  refine congrArg₂ (· + ·) ?_ (bias_entry b n o)
  refine (matmul_entry _ _ n o).trans ?_
  exact Finset.sum_congr rfl fun k _ => congrArg₂ (· * ·) (rows_entry x n k) (weight_entry w k o)

/-- The key projection is the same function of its blocks as the query projection. -/
theorem key_proj_eq : k0_pay6 (F := Ideal) = k0_pay5 := rfl
/-- So is the value projection. -/
theorem value_proj_eq : k0_pay7 (F := Ideal) = k0_pay5 := rfl

/-! ## The normaliser of one view's block -/

/-- A vector cast to a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-entry matrix spread over an `a × b` matrix reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A block's sum of squares as the body takes it — squares summed along each row, the row sums then summed down the
    rows, with the two unit-axis casts between — is, at its one entry, the double sum over rows and columns. -/
theorem sumsq_entry (P : FVec Ideal S4096x128 .f32) :
    (shapeCast S1x1 (multiReduction (F := Ideal) .add [0] S1 (shapeCast S4096x1 (multiReduction (F := Ideal) .add [1] S4096 (mulf P P) 0x00000000#32 reduces_S4096x128_S4096 (.inl rfl) rfl) shapeCasts_S4096_S4096x1) 0x00000000#32 reduces_S4096x1_S1 (.inl rfl) rfl) shapeCasts_S1_S1x1 : FVec Ideal S1x1 .f32) (ix2 (0 : Fin 1) (0 : Fin 1))
      = ∑ n : Fin 4096, ∑ o : Fin 128, P (ix2 n o) * P (ix2 n o) := by
  refine (shapeCast_a_1a_apply _ shapeCasts_S1_S1x1 (0 : Fin 1) (0 : Fin 1)).trans ?_
  refine (Ideal.multiReduction_add_single _ 0x00000000#32 reduces_S4096x1_S1 (.inl rfl) rfl (ix1 (0 : Fin 1))).trans ?_
  refine Finset.sum_congr rfl fun n _ => ?_
  have e1 : reduces_S4096x1_S1.lift (ix1 (0 : Fin 1)) n = ix2 n (0 : Fin 1) :=
    funext fun a => Fin.ext (by match a with | ⟨0, _⟩ => rfl | ⟨1, _⟩ => rfl)
  refine (congrArg _ e1).trans ?_
  refine (shapeCast_a_a1_apply _ shapeCasts_S4096_S4096x1 n (0 : Fin 1)).trans ?_
  refine (Ideal.multiReduction_add_single _ 0x00000000#32 reduces_S4096x128_S4096 (.inl rfl) rfl (ix1 n)).trans ?_
  refine Finset.sum_congr rfl fun o _ => ?_
  have e2 : reduces_S4096x128_S4096.lift (ix1 n) o = ix2 n o :=
    funext fun a => Fin.ext (by match a with | ⟨0, _⟩ => rfl | ⟨1, _⟩ => rfl)
  exact (congrArg (mulf P P) e2).trans (mulf_apply P P (ix2 n o))

/-- THE NORMALISER at its one entry: the reciprocal square root of the block's sum of squares. -/
theorem rnorm_entry (P : FVec Ideal S4096x128 .f32) :
    (rsqrt (shapeCast S1x1 (multiReduction (F := Ideal) .add [0] S1 (shapeCast S4096x1 (multiReduction (F := Ideal) .add [1] S4096 (mulf P P) 0x00000000#32 reduces_S4096x128_S4096 (.inl rfl) rfl) shapeCasts_S4096_S4096x1) 0x00000000#32 reduces_S4096x1_S1 (.inl rfl) rfl) shapeCasts_S1_S1x1) : FVec Ideal S1x1 .f32) (ix2 (0 : Fin 1) (0 : Fin 1))
      = Ideal.rsqrt (∑ n : Fin 4096, ∑ o : Fin 128, P (ix2 n o) * P (ix2 n o)) :=
  congrArg Ideal.rsqrt (sumsq_entry P)

/-- A block times a one-entry matrix spread over it, stored with a leading unit axis: entry `(u, n, o)` is the
    block's entry `(n, o)` times that one entry. -/
theorem scaled_entry (P : FVec Ideal S4096x128 .f32) (r : FVec Ideal S1x1 .f32) (u : Fin 1) (n : Fin 4096) (o : Fin 128) :
    k0_pay1 P r (ix3 u n o) = P (ix2 n o) * r (ix2 (0 : Fin 1) (0 : Fin 1)) := by
  unfold k0_pay1
  refine (shapeCast_ab_1ab_apply _ shapeCasts_S4096x128_S1x4096x128 u n o).trans ?_
  refine (mulf_apply _ _ (ix2 n o)).trans ?_
  exact congrArg (P (ix2 n o) * ·) (broadcastTo_11_ab_apply r broadcasts_S1x1_S4096x128 n o)

/-- THE NORMALISED BLOCK in one piece (the keys' form): a block times the reciprocal square root of its own sum of
    squares. -/
theorem normed_entry (P : FVec Ideal S4096x128 .f32) (u : Fin 1) (n : Fin 4096) (o : Fin 128) :
    k0_pay2 P (ix3 u n o) = P (ix2 n o) * Ideal.rsqrt (∑ n' : Fin 4096, ∑ o' : Fin 128, P (ix2 n' o') * P (ix2 n' o')) := by
  unfold k0_pay2
  refine (shapeCast_ab_1ab_apply _ shapeCasts_S4096x128_S1x4096x128 u n o).trans ?_
  refine (mulf_apply _ _ (ix2 n o)).trans ?_
  refine congrArg (P (ix2 n o) * ·) ?_
  exact (broadcastTo_11_ab_apply _ broadcasts_S1x1_S4096x128 n o).trans (rnorm_entry P)

/-- The same in two pieces (the queries' form): the normaliser is computed before the store and passed in. -/
theorem rnorm_pay_entry (x : Vec Ideal S1x4096x256 .f32) (w : Vec Ideal S1x256x128 .f32) (b : Vec Ideal S1x1x128 .f32) :
    k0_pay8 x w b (ix2 (0 : Fin 1) (0 : Fin 1))
      = Ideal.rsqrt (∑ n : Fin 4096, ∑ o : Fin 128, k0_pay5 x w b (ix2 n o) * k0_pay5 x w b (ix2 n o)) := by
  unfold k0_pay8
  exact rnorm_entry (k0_pay5 x w b)

/-- The stored projection alone (the values' form): the leading unit axis added. -/
theorem plain_entry (P : FVec Ideal S4096x128 .f32) (u : Fin 1) (n : Fin 4096) (o : Fin 128) :
    k0_pay3 P (ix3 u n o) = P (ix2 n o) := by
  unfold k0_pay3
  exact shapeCast_ab_1ab_apply _ shapeCasts_S4096x128_S1x4096x128 u n o

/-- A block's projection, normalised: each entry times the reciprocal square root of the sum of all the squares. -/
def blockNormed (x : Vec Ideal S1x4096x256 .f32) (w : Vec Ideal S1x256x128 .f32) (b : Vec Ideal S1x1x128 .f32)
    (n : Fin 4096) (o : Fin 128) : EReal :=
  blockProj x w b n o * Ideal.rsqrt (∑ n' : Fin 4096, ∑ o' : Fin 128, blockProj x w b n' o' * blockProj x w b n' o')

/-- What the body stores for the queries, at an entry. -/
theorem queries_entry (x : Vec Ideal S1x4096x256 .f32) (w : Vec Ideal S1x256x128 .f32) (b : Vec Ideal S1x1x128 .f32)
    (u : Fin 1) (n : Fin 4096) (o : Fin 128) :
    k0_pay1 (k0_pay5 x w b) (k0_pay8 x w b) (ix3 u n o) = blockNormed x w b n o := by
  refine (scaled_entry _ _ u n o).trans ?_
  rw [rnorm_pay_entry]
  simp only [proj_entry]
  rfl

/-- What the body stores for the keys, at an entry. -/
theorem keys_entry (x : Vec Ideal S1x4096x256 .f32) (w : Vec Ideal S1x256x128 .f32) (b : Vec Ideal S1x1x128 .f32)
    (u : Fin 1) (n : Fin 4096) (o : Fin 128) :
    k0_pay2 (k0_pay6 x w b) (ix3 u n o) = blockNormed x w b n o := by
  rw [key_proj_eq]
  refine (normed_entry _ u n o).trans ?_
  simp only [proj_entry]
  rfl

/-- What the body stores for the values, at an entry. -/
theorem values_entry (x : Vec Ideal S1x4096x256 .f32) (w : Vec Ideal S1x256x128 .f32) (b : Vec Ideal S1x1x128 .f32)
    (u : Fin 1) (n : Fin 4096) (o : Fin 128) :
    k0_pay3 (k0_pay7 x w b) (ix3 u n o) = blockProj x w b n o := by
  rw [value_proj_eq]
  exact (plain_entry _ u n o).trans (proj_entry x w b n o)

/-! ## The blocks of one view

The grid has one point per view. At point `t` every window's block is block `(t, 0, 0)` of its array, and a block spans
its array's two trailing axes whole: the block IS view `t` of the array. -/

/-- The three zero offsets of a whole-block access, as a constant function. -/
theorem zero_offsets : (![0, 0, 0] : Fin 3 → Nat) = fun _ => 0 := funext fun a => by fin_cases a <;> rfl

/-- The view a grid point works on. -/
def viewOf (t : Fin cfg0.N) : Fin 3 := Fin.cast N_0 t

/-- Every view is some point's. -/
theorem exists_point (v : Fin 3) : ∃ t : Fin cfg0.N, t.val = v.val := ⟨Fin.cast N_0.symm v, rfl⟩

/-- The printed index maps, decided over the three points: each of the ten windows is at block `(t, 0, 0)`. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- The row block at point `t`, and the three weight and three bias blocks, at their literal types. -/
abbrev rowsBlk (c : Dev nD) (t : Fin cfg0.N) : Vec Ideal S1x4096x256 .f32 := iblk0 V c 0 t
abbrev wqBlk (c : Dev nD) (t : Fin cfg0.N) : Vec Ideal S1x256x128 .f32 := iblk0 V c 1 t
abbrev bqBlk (c : Dev nD) (t : Fin cfg0.N) : Vec Ideal S1x1x128 .f32 := iblk0 V c 2 t
abbrev wkBlk (c : Dev nD) (t : Fin cfg0.N) : Vec Ideal S1x256x128 .f32 := iblk0 V c 3 t
abbrev bkBlk (c : Dev nD) (t : Fin cfg0.N) : Vec Ideal S1x1x128 .f32 := iblk0 V c 4 t
abbrev wvBlk (c : Dev nD) (t : Fin cfg0.N) : Vec Ideal S1x256x128 .f32 := iblk0 V c 5 t
abbrev bvBlk (c : Dev nD) (t : Fin cfg0.N) : Vec Ideal S1x1x128 .f32 := iblk0 V c 6 t

/-- The row block at point `t` is view `t` of the rows. -/
theorem rowsBlk_entry (c : Dev nD) (t : Fin cfg0.N) (u : Fin 1) (n : Fin 4096) (k : Fin 256) :
    rowsBlk V c t (ix3 u n k) = V c main_arg0 (ix3 (viewOf t) n k) := by
  obtain ⟨⟨e0, e1, e2⟩, -⟩ := block_index t
  show V c main_arg0 (((cfg0.win 0).blk t).view.emb (ix3 u n k)) = V c main_arg0 (ix3 (viewOf t) n k)
  refine congrArg (V c main_arg0) (funext fun a => Fin.ext ?_)
  match a with
  | ⟨0, _⟩ => show win0_0.index t (0 : Fin 3) * 1 + 1 * u.val = t.val; omega
  | ⟨1, _⟩ => show win0_0.index t (1 : Fin 3) * 4096 + 1 * n.val = n.val; omega
  | ⟨2, _⟩ => show win0_0.index t (2 : Fin 3) * 256 + 1 * k.val = k.val; omega

/-- The query weight block at point `t` is view `t` of the query weights. -/
theorem wqBlk_entry (c : Dev nD) (t : Fin cfg0.N) (u : Fin 1) (k : Fin 256) (o : Fin 128) :
    wqBlk V c t (ix3 u k o) = V c main_v0 (ix3 (viewOf t) k o) := by
  obtain ⟨-, ⟨e0, e1, e2⟩, -⟩ := block_index t
  show V c main_v0 (((cfg0.win 1).blk t).view.emb (ix3 u k o)) = V c main_v0 (ix3 (viewOf t) k o)
  refine congrArg (V c main_v0) (funext fun a => Fin.ext ?_)
  match a with
  | ⟨0, _⟩ => show win0_1.index t (0 : Fin 3) * 1 + 1 * u.val = t.val; omega
  | ⟨1, _⟩ => show win0_1.index t (1 : Fin 3) * 256 + 1 * k.val = k.val; omega
  | ⟨2, _⟩ => show win0_1.index t (2 : Fin 3) * 128 + 1 * o.val = o.val; omega

/-- The query bias block at point `t` is view `t` of the query biases. -/
theorem bqBlk_entry (c : Dev nD) (t : Fin cfg0.N) (u : Fin 1) (z : Fin 1) (o : Fin 128) :
    bqBlk V c t (ix3 u z o) = V c main_v3 (ix3 (viewOf t) z o) := by
  obtain ⟨-, -, ⟨e0, e1, e2⟩, -⟩ := block_index t
  show V c main_v3 (((cfg0.win 2).blk t).view.emb (ix3 u z o)) = V c main_v3 (ix3 (viewOf t) z o)
  refine congrArg (V c main_v3) (funext fun a => Fin.ext ?_)
  match a with
  | ⟨0, _⟩ => show win0_2.index t (0 : Fin 3) * 1 + 1 * u.val = t.val; omega
  | ⟨1, _⟩ => show win0_2.index t (1 : Fin 3) * 1 + 1 * z.val = z.val; omega
  | ⟨2, _⟩ => show win0_2.index t (2 : Fin 3) * 128 + 1 * o.val = o.val; omega

/-- The key weight block at point `t` is view `t` of the key weights. -/
theorem wkBlk_entry (c : Dev nD) (t : Fin cfg0.N) (u : Fin 1) (k : Fin 256) (o : Fin 128) :
    wkBlk V c t (ix3 u k o) = V c main_v1 (ix3 (viewOf t) k o) := by
  obtain ⟨-, -, -, ⟨e0, e1, e2⟩, -⟩ := block_index t
  show V c main_v1 (((cfg0.win 3).blk t).view.emb (ix3 u k o)) = V c main_v1 (ix3 (viewOf t) k o)
  refine congrArg (V c main_v1) (funext fun a => Fin.ext ?_)
  match a with
  | ⟨0, _⟩ => show win0_3.index t (0 : Fin 3) * 1 + 1 * u.val = t.val; omega
  | ⟨1, _⟩ => show win0_3.index t (1 : Fin 3) * 256 + 1 * k.val = k.val; omega
  | ⟨2, _⟩ => show win0_3.index t (2 : Fin 3) * 128 + 1 * o.val = o.val; omega

/-- The key bias block at point `t` is view `t` of the key biases. -/
theorem bkBlk_entry (c : Dev nD) (t : Fin cfg0.N) (u : Fin 1) (z : Fin 1) (o : Fin 128) :
    bkBlk V c t (ix3 u z o) = V c main_v4 (ix3 (viewOf t) z o) := by
  obtain ⟨-, -, -, -, ⟨e0, e1, e2⟩, -⟩ := block_index t
  show V c main_v4 (((cfg0.win 4).blk t).view.emb (ix3 u z o)) = V c main_v4 (ix3 (viewOf t) z o)
  refine congrArg (V c main_v4) (funext fun a => Fin.ext ?_)
  match a with
  | ⟨0, _⟩ => show win0_4.index t (0 : Fin 3) * 1 + 1 * u.val = t.val; omega
  | ⟨1, _⟩ => show win0_4.index t (1 : Fin 3) * 1 + 1 * z.val = z.val; omega
  | ⟨2, _⟩ => show win0_4.index t (2 : Fin 3) * 128 + 1 * o.val = o.val; omega

/-- The value weight block at point `t` is view `t` of the value weights. -/
theorem wvBlk_entry (c : Dev nD) (t : Fin cfg0.N) (u : Fin 1) (k : Fin 256) (o : Fin 128) :
    wvBlk V c t (ix3 u k o) = V c main_v2 (ix3 (viewOf t) k o) := by
  obtain ⟨-, -, -, -, -, ⟨e0, e1, e2⟩, -⟩ := block_index t
  show V c main_v2 (((cfg0.win 5).blk t).view.emb (ix3 u k o)) = V c main_v2 (ix3 (viewOf t) k o)
  refine congrArg (V c main_v2) (funext fun a => Fin.ext ?_)
  match a with
  | ⟨0, _⟩ => show win0_5.index t (0 : Fin 3) * 1 + 1 * u.val = t.val; omega
  | ⟨1, _⟩ => show win0_5.index t (1 : Fin 3) * 256 + 1 * k.val = k.val; omega
  | ⟨2, _⟩ => show win0_5.index t (2 : Fin 3) * 128 + 1 * o.val = o.val; omega

/-- The value bias block at point `t` is view `t` of the value biases. -/
theorem bvBlk_entry (c : Dev nD) (t : Fin cfg0.N) (u : Fin 1) (z : Fin 1) (o : Fin 128) :
    bvBlk V c t (ix3 u z o) = V c main_v5 (ix3 (viewOf t) z o) := by
  obtain ⟨-, -, -, -, -, -, ⟨e0, e1, e2⟩, -⟩ := block_index t
  show V c main_v5 (((cfg0.win 6).blk t).view.emb (ix3 u z o)) = V c main_v5 (ix3 (viewOf t) z o)
  refine congrArg (V c main_v5) (funext fun a => Fin.ext ?_)
  match a with
  | ⟨0, _⟩ => show win0_6.index t (0 : Fin 3) * 1 + 1 * u.val = t.val; omega
  | ⟨1, _⟩ => show win0_6.index t (1 : Fin 3) * 1 + 1 * z.val = z.val; omega
  | ⟨2, _⟩ => show win0_6.index t (2 : Fin 3) * 128 + 1 * o.val = o.val; omega

/-! ## A view's block against the whole arrays -/

/-- When three blocks are view `v` of three arrays, the blocks' projection is view `v` of the arrays' projection. -/
theorem blockProj_view (X : Arr3 3 4096 256) (W : Arr3 3 256 128) (B : Arr3 3 1 128) (v : Fin 3)
    (x : Vec Ideal S1x4096x256 .f32) (w : Vec Ideal S1x256x128 .f32) (b : Vec Ideal S1x1x128 .f32)
    (hx : ∀ (u : Fin 1) (n : Fin 4096) (k : Fin 256), x (ix3 u n k) = X (ix3 v n k))
    (hw : ∀ (u : Fin 1) (k : Fin 256) (o : Fin 128), w (ix3 u k o) = W (ix3 v k o))
    (hb : ∀ (u z : Fin 1) (o : Fin 128), b (ix3 u z o) = B (ix3 v z o)) :
    blockProj x w b = projT X W B v := by
  funext n o
  unfold blockProj projT
  rw [hb]
  exact congrArg (· + B (ix3 v 0 o)) (Finset.sum_congr rfl fun k _ => by rw [hx, hw])

/-- … and so is the normalised projection: the sum of squares runs over the one view. -/
theorem blockNormed_view (X : Arr3 3 4096 256) (W : Arr3 3 256 128) (B : Arr3 3 1 128) (v : Fin 3)
    (x : Vec Ideal S1x4096x256 .f32) (w : Vec Ideal S1x256x128 .f32) (b : Vec Ideal S1x1x128 .f32)
    (hx : ∀ (u : Fin 1) (n : Fin 4096) (k : Fin 256), x (ix3 u n k) = X (ix3 v n k))
    (hw : ∀ (u : Fin 1) (k : Fin 256) (o : Fin 128), w (ix3 u k o) = W (ix3 v k o))
    (hb : ∀ (u z : Fin 1) (o : Fin 128), b (ix3 u z o) = B (ix3 v z o)) (n : Fin 4096) (o : Fin 128) :
    blockNormed x w b n o = normed (projT X W B) v n o := by
  unfold blockNormed
  rw [blockProj_view X W B v x w b hx hw hb]
  rfl

/-! ## What each point writes back -/

/-- A function of the query array's index read through point `t`'s block is the function on view `t`. -/
theorem queries_read (t : Fin cfg0.N) (G : S3x4096x128.Idx → EReal) (u : Fin 1) (n : Fin 4096) (o : Fin 128) :
    ((cfg0.win 7).blk t).view.read (Elt Ideal) G (ix3 u n o) = G (ix3 (viewOf t) n o) := by
  obtain ⟨-, -, -, -, -, -, -, ⟨e0, e1, e2⟩, -⟩ := block_index t
  show G (((cfg0.win 7).blk t).view.emb (ix3 u n o)) = G (ix3 (viewOf t) n o)
  refine congrArg G (funext fun a => Fin.ext ?_)
  match a with
  | ⟨0, _⟩ => show win0_7.index t (0 : Fin 3) * 1 + 1 * u.val = t.val; omega
  | ⟨1, _⟩ => show win0_7.index t (1 : Fin 3) * 4096 + 1 * n.val = n.val; omega
  | ⟨2, _⟩ => show win0_7.index t (2 : Fin 3) * 128 + 1 * o.val = o.val; omega

/-- The same for the key array. -/
theorem keys_read (t : Fin cfg0.N) (G : S3x4096x128.Idx → EReal) (u : Fin 1) (n : Fin 4096) (o : Fin 128) :
    ((cfg0.win 8).blk t).view.read (Elt Ideal) G (ix3 u n o) = G (ix3 (viewOf t) n o) := by
  obtain ⟨-, -, -, -, -, -, -, -, ⟨e0, e1, e2⟩, -⟩ := block_index t
  show G (((cfg0.win 8).blk t).view.emb (ix3 u n o)) = G (ix3 (viewOf t) n o)
  refine congrArg G (funext fun a => Fin.ext ?_)
  match a with
  | ⟨0, _⟩ => show win0_8.index t (0 : Fin 3) * 1 + 1 * u.val = t.val; omega
  | ⟨1, _⟩ => show win0_8.index t (1 : Fin 3) * 4096 + 1 * n.val = n.val; omega
  | ⟨2, _⟩ => show win0_8.index t (2 : Fin 3) * 128 + 1 * o.val = o.val; omega

/-- The same for the value array. -/
theorem values_read (t : Fin cfg0.N) (G : S3x4096x128.Idx → EReal) (u : Fin 1) (n : Fin 4096) (o : Fin 128) :
    ((cfg0.win 9).blk t).view.read (Elt Ideal) G (ix3 u n o) = G (ix3 (viewOf t) n o) := by
  obtain ⟨-, -, -, -, -, -, -, -, -, ⟨e0, e1, e2⟩⟩ := block_index t
  show G (((cfg0.win 9).blk t).view.emb (ix3 u n o)) = G (ix3 (viewOf t) n o)
  refine congrArg G (funext fun a => Fin.ext ?_)
  match a with
  | ⟨0, _⟩ => show win0_9.index t (0 : Fin 3) * 1 + 1 * u.val = t.val; omega
  | ⟨1, _⟩ => show win0_9.index t (1 : Fin 3) * 4096 + 1 * n.val = n.val; omega
  | ⟨2, _⟩ => show win0_9.index t (2 : Fin 3) * 128 + 1 * o.val = o.val; omega

/-- WHAT POINT `t` WRITES BACK to the queries is view `t` of the normalised projection of the whole arrays. -/
theorem flushed_queries (c : Dev nD) (t : Fin cfg0.N) :
    (dat0 (F := Ideal) V c).flushed 7 t = ((cfg0.win 7).blk t).view.read (Elt Ideal)
      (fun i => normed (projT (V c main_arg0) (V c main_v0) (V c main_v3)) (i 0) (i 1) (i 2)) := by
  show (cfg0.win 7).cut (grid0.coords t) ((dat0 V c).after 7 t) = _
  rw [after0_7]
  unfold out0_7
  rw [View.canon_unit_zero zero_offsets]
  simp only [View.ld_unit_zero (S := S1x4096x256) zero_offsets, View.ld_unit_zero (S := S1x256x128) zero_offsets,
    View.ld_unit_zero (S := S1x1x128) zero_offsets]
  funext j
  obtain ⟨u, n, o, rfl⟩ : ∃ (u : Fin 1) (n : Fin 4096) (o : Fin 128), j = ix3 u n o := ⟨j 0, j 1, j 2, eq_ix3 j⟩
  refine Eq.trans ?_ (queries_read t _ u n o).symm
  show k0_pay1 (k0_pay5 (rowsBlk V c t) (wqBlk V c t) (bqBlk V c t)) (k0_pay8 (rowsBlk V c t) (wqBlk V c t) (bqBlk V c t)) (ix3 u n o) = normed (projT (V c main_arg0) (V c main_v0) (V c main_v3)) (viewOf t) n o
  refine (queries_entry (rowsBlk V c t) (wqBlk V c t) (bqBlk V c t) u n o).trans ?_
  exact blockNormed_view (V c main_arg0) (V c main_v0) (V c main_v3) (viewOf t) (rowsBlk V c t) (wqBlk V c t) (bqBlk V c t)
    (rowsBlk_entry V c t) (wqBlk_entry V c t) (bqBlk_entry V c t) n o

/-- WHAT POINT `t` WRITES BACK to the keys is view `t` of the normalised projection of the whole arrays. -/
theorem flushed_keys (c : Dev nD) (t : Fin cfg0.N) :
    (dat0 (F := Ideal) V c).flushed 8 t = ((cfg0.win 8).blk t).view.read (Elt Ideal)
      (fun i => normed (projT (V c main_arg0) (V c main_v1) (V c main_v4)) (i 0) (i 1) (i 2)) := by
  show (cfg0.win 8).cut (grid0.coords t) ((dat0 V c).after 8 t) = _
  rw [after0_8]
  unfold out0_8
  rw [View.canon_unit_zero zero_offsets]
  simp only [View.ld_unit_zero (S := S1x4096x256) zero_offsets, View.ld_unit_zero (S := S1x256x128) zero_offsets,
    View.ld_unit_zero (S := S1x1x128) zero_offsets]
  funext j
  obtain ⟨u, n, o, rfl⟩ : ∃ (u : Fin 1) (n : Fin 4096) (o : Fin 128), j = ix3 u n o := ⟨j 0, j 1, j 2, eq_ix3 j⟩
  refine Eq.trans ?_ (keys_read t _ u n o).symm
  show k0_pay2 (k0_pay6 (rowsBlk V c t) (wkBlk V c t) (bkBlk V c t)) (ix3 u n o) = normed (projT (V c main_arg0) (V c main_v1) (V c main_v4)) (viewOf t) n o
  refine (keys_entry (rowsBlk V c t) (wkBlk V c t) (bkBlk V c t) u n o).trans ?_
  exact blockNormed_view (V c main_arg0) (V c main_v1) (V c main_v4) (viewOf t) (rowsBlk V c t) (wkBlk V c t) (bkBlk V c t)
    (rowsBlk_entry V c t) (wkBlk_entry V c t) (bkBlk_entry V c t) n o

/-- WHAT POINT `t` WRITES BACK to the values is view `t` of the projection of the whole arrays. -/
theorem flushed_values (c : Dev nD) (t : Fin cfg0.N) :
    (dat0 (F := Ideal) V c).flushed 9 t = ((cfg0.win 9).blk t).view.read (Elt Ideal)
      (fun i => projT (V c main_arg0) (V c main_v2) (V c main_v5) (i 0) (i 1) (i 2)) := by
  show (cfg0.win 9).cut (grid0.coords t) ((dat0 V c).after 9 t) = _
  rw [after0_9]
  unfold out0_9
  rw [View.canon_unit_zero zero_offsets]
  simp only [View.ld_unit_zero (S := S1x4096x256) zero_offsets, View.ld_unit_zero (S := S1x256x128) zero_offsets,
    View.ld_unit_zero (S := S1x1x128) zero_offsets]
  funext j
  obtain ⟨u, n, o, rfl⟩ : ∃ (u : Fin 1) (n : Fin 4096) (o : Fin 128), j = ix3 u n o := ⟨j 0, j 1, j 2, eq_ix3 j⟩
  refine Eq.trans ?_ (values_read t _ u n o).symm
  show k0_pay3 (k0_pay7 (rowsBlk V c t) (wvBlk V c t) (bvBlk V c t)) (ix3 u n o) = projT (V c main_arg0) (V c main_v2) (V c main_v5) (viewOf t) n o
  refine (values_entry (rowsBlk V c t) (wvBlk V c t) (bvBlk V c t) u n o).trans ?_
  exact congrFun (congrFun (blockProj_view (V c main_arg0) (V c main_v2) (V c main_v5) (viewOf t) (rowsBlk V c t) (wvBlk V c t) (bvBlk V c t)
    (rowsBlk_entry V c t) (wvBlk_entry V c t) (bvBlk_entry V c t)) n) o

/-! ## The blocks cover the arrays -/

/-- An index of the query array is in point `t`'s block iff each coordinate is in the block's range on its axis. -/
theorem mem_queries_blk (t : Fin cfg0.N) (i : S3x4096x128.Idx) :
    i ∈ ((cfg0.win 7).blk t).view.set ↔ ∀ a : Fin 3, win0_7.index t a * S1x4096x128.size a ≤ (i a).val ∧ (i a).val < win0_7.index t a * S1x4096x128.size a + S1x4096x128.size a := by
  show i ∈ ((View.whole main_v6_0).slice (win0_7.rect t)).set ↔ _
  rw [View.set_slice_whole, Rect.mem_set_unit]
  exact Iff.rfl

/-- The three blocks cover the query array: index `(v, n, o)` is in the block of the point that works on view `v`. -/
theorem cover_queries (i : S3x4096x128.Idx) :
    ∃ t : Fin cfg0.N, (cfg0.win 7).flush t = true ∧ i ∈ ((cfg0.win 7).blk t).view.set := by
  have hi0 : (i 0).val < 3 := (i 0).isLt
  have hi1 : (i 1).val < 4096 := (i 1).isLt
  have hi2 : (i 2).val < 128 := (i 2).isLt
  obtain ⟨t, ht⟩ := exists_point ⟨(i 0).val, hi0⟩
  have ht' : t.val = (i 0).val := ht
  obtain ⟨-, -, -, -, -, -, -, ⟨e0, e1, e2⟩, -⟩ := block_index t
  refine ⟨t, flush0_7 t, ?_⟩
  rw [mem_queries_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4096 ≤ (i 1).val ∧ (i 1).val < win0_7.index t (1 : Fin 3) * 4096 + 4096; omega
  | ⟨2, _⟩ => show win0_7.index t (2 : Fin 3) * 128 ≤ (i 2).val ∧ (i 2).val < win0_7.index t (2 : Fin 3) * 128 + 128; omega

/-- An index of the key array is in point `t`'s block iff each coordinate is in the block's range on its axis. -/
theorem mem_keys_blk (t : Fin cfg0.N) (i : S3x4096x128.Idx) :
    i ∈ ((cfg0.win 8).blk t).view.set ↔ ∀ a : Fin 3, win0_8.index t a * S1x4096x128.size a ≤ (i a).val ∧ (i a).val < win0_8.index t a * S1x4096x128.size a + S1x4096x128.size a := by
  show i ∈ ((View.whole main_v6_1).slice (win0_8.rect t)).set ↔ _
  rw [View.set_slice_whole, Rect.mem_set_unit]
  exact Iff.rfl

/-- The three blocks cover the key array. -/
theorem cover_keys (i : S3x4096x128.Idx) :
    ∃ t : Fin cfg0.N, (cfg0.win 8).flush t = true ∧ i ∈ ((cfg0.win 8).blk t).view.set := by
  have hi0 : (i 0).val < 3 := (i 0).isLt
  have hi1 : (i 1).val < 4096 := (i 1).isLt
  have hi2 : (i 2).val < 128 := (i 2).isLt
  obtain ⟨t, ht⟩ := exists_point ⟨(i 0).val, hi0⟩
  have ht' : t.val = (i 0).val := ht
  obtain ⟨-, -, -, -, -, -, -, -, ⟨e0, e1, e2⟩, -⟩ := block_index t
  refine ⟨t, flush0_8 t, ?_⟩
  rw [mem_keys_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 4096 ≤ (i 1).val ∧ (i 1).val < win0_8.index t (1 : Fin 3) * 4096 + 4096; omega
  | ⟨2, _⟩ => show win0_8.index t (2 : Fin 3) * 128 ≤ (i 2).val ∧ (i 2).val < win0_8.index t (2 : Fin 3) * 128 + 128; omega

/-- An index of the value array is in point `t`'s block iff each coordinate is in the block's range on its axis. -/
theorem mem_values_blk (t : Fin cfg0.N) (i : S3x4096x128.Idx) :
    i ∈ ((cfg0.win 9).blk t).view.set ↔ ∀ a : Fin 3, win0_9.index t a * S1x4096x128.size a ≤ (i a).val ∧ (i a).val < win0_9.index t a * S1x4096x128.size a + S1x4096x128.size a := by
  show i ∈ ((View.whole main_v6_2).slice (win0_9.rect t)).set ↔ _
  rw [View.set_slice_whole, Rect.mem_set_unit]
  exact Iff.rfl

/-- The three blocks cover the value array. -/
theorem cover_values (i : S3x4096x128.Idx) :
    ∃ t : Fin cfg0.N, (cfg0.win 9).flush t = true ∧ i ∈ ((cfg0.win 9).blk t).view.set := by
  have hi0 : (i 0).val < 3 := (i 0).isLt
  have hi1 : (i 1).val < 4096 := (i 1).isLt
  have hi2 : (i 2).val < 128 := (i 2).isLt
  obtain ⟨t, ht⟩ := exists_point ⟨(i 0).val, hi0⟩
  have ht' : t.val = (i 0).val := ht
  obtain ⟨-, -, -, -, -, -, -, -, -, ⟨e0, e1, e2⟩⟩ := block_index t
  refine ⟨t, flush0_9 t, ?_⟩
  rw [mem_values_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 4096 ≤ (i 1).val ∧ (i 1).val < win0_9.index t (1 : Fin 3) * 4096 + 4096; omega
  | ⟨2, _⟩ => show win0_9.index t (2 : Fin 3) * 128 ≤ (i 2).val ∧ (i 2).val < win0_9.index t (2 : Fin 3) * 128 + 128; omega

/-! ## The three arrays after the call -/

/-- The query array ends holding, view by view, the projection `x · w + b` with every entry multiplied by the reciprocal
    square root of its view's sum of squares. -/
theorem queries (c : Dev nD) : (dat0 (F := Ideal) V c).arrAt 7 cfg0.N
    = fun i => normed (projT (V c main_arg0) (V c main_v0) (V c main_v3)) (i 0) (i 1) (i 2) :=
  (dat0 (F := Ideal) V c).arrAt_eq_of_cover 7 _ (fun t _ => flushed_queries V c t) cover_queries

/-- The key array likewise, from the key weights and biases. -/
theorem keys (c : Dev nD) : (dat0 (F := Ideal) V c).arrAt 8 cfg0.N
    = fun i => normed (projT (V c main_arg0) (V c main_v1) (V c main_v4)) (i 0) (i 1) (i 2) :=
  (dat0 (F := Ideal) V c).arrAt_eq_of_cover 8 _ (fun t _ => flushed_keys V c t) cover_keys

/-- The value array ends holding the plain projection from the value weights and biases. -/
theorem values (c : Dev nD) : (dat0 (F := Ideal) V c).arrAt 9 cfg0.N
    = fun i => projT (V c main_arg0) (V c main_v2) (V c main_v5) (i 0) (i 1) (i 2) :=
  (dat0 (F := Ideal) V c).arrAt_eq_of_cover 9 _ (fun t _ => flushed_values V c t) cover_values

end Cert.KernelIdeal.RegionA

end
-- ==== Proof.RegionB.lean ====
import proofs.«423141_j89103391523710_3_alg».proof.Proof.Gen.KernelIdeal.Frame
import proofs.«423141_j89103391523710_3_alg».proof.Proof.Spec
import Idealize.ShloMosaic.Lib.Pipeline.Value
import Idealize.ShloMosaic.Lib.ValueLayout
import Idealize.ShloMosaic.PureOps.Ideal.Laws
set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SigmoidAttn

namespace Cert.KernelIdeal.RegionB
variable (V : (c : Dev nD) → (b : Ref sig .tc) → Buf (Elt Ideal) ((c : Thread nD τ).loc b))

/-!
# The row sums of the gates, as one call of the second stage leaves them

For each of three views there are 4096 query rows and 4096 key rows of 128 columns. The gate between query row `n` and
key row `m` of one view is the logistic function of their inner product, `σ(∑ d, q n d * k m d)`, and the row sum of
query row `n` is `∑ m, gate n m` over all 4096 key rows of that view.

The call runs over 3 × 16 grid points. Point `(v, r)` reads the tile of query rows `256 r … 256 r + 255` of view `v`
and the whole key block of view `v`, forms the `256 × 4096` scores (contracting the 128 columns of both operands into
a zero accumulator), applies the logistic function entrywise, sums each row over its 4096 entries, and writes the 256
sums as rows `256 r … 256 r + 255` of view `v` of a `3 × 4096 × 1` column. An entry `(v, n, 0)` of that column therefore
depends on query row `n` of view `v` and on every key row of view `v`, and on nothing else; the 48 tiles are disjoint and
fill the column, so after the call the column holds the row sums everywhere, whatever it and the other arrays held
before (`rowsums`).
-/

/-! ## The score product at an index

The body multiplies a tile of 256 query rows against all 4096 key rows of the view, contracting the 128 columns of
both operands: entry `(n, m)` of the scores is `∑ d, q n d * k m d`. -/

/-- On the query operand's row axis the product's operand index is the result's row. -/
theorem lhs_scores_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide), dif_pos (show (0 : Fin S256x128.rank) ∈ dot_S256x128_S4096x128_S256x4096_1_1_0_0_n_n.lhsNonContracting by decide)]
  rfl
/-- On the query operand's column axis it is the contraction position. -/
theorem lhs_scores_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q
/-- On the key operand's row axis the operand index is the result's column. -/
theorem rhs_scores_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide), dif_pos (show (0 : Fin S4096x128.rank) ∈ dot_S256x128_S4096x128_S256x4096_1_1_0_0_n_n.rhsNonContracting by decide)]
  rfl
/-- On the key operand's column axis it is the contraction position. -/
theorem rhs_scores_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

/-- Entry `(n, m)` of the product into a zero accumulator is the inner product of query row `n` and key row `m`. -/
theorem scores_apply (L : FVec Ideal S256x128 .bf16) (R : FVec Ideal S4096x128 .bf16) (n : Fin 256) (m : Fin 4096) :
    matmul dot_S256x128_S4096x128_S256x4096_1_1_0_0_n_n none L R (constant (F := Ideal) S256x4096 .f32 0x00000000#32) (ix2 n m)
      = ∑ d : Fin 128, L (ix2 n d) * R (ix2 m d) := by
  simp only [matmul]
  rw [Ideal.matmul_constant_zero_apply, ← Equiv.sum_comp (ValueIdx.contrEquiv1 dot_S256x128_S4096x128_S256x4096_1_1_0_0_n_n 128 rfl rfl).symm]
  refine Finset.sum_congr rfl fun k _ => ?_
  have hk := ValueIdx.contrEquiv1_symm_val dot_S256x128_S4096x128_S256x4096_1_1_0_0_n_n 128 rfl rfl k
  have el : dot_S256x128_S4096x128_S256x4096_1_1_0_0_n_n.lhsIdx (ix2 n m) ((ValueIdx.contrEquiv1 dot_S256x128_S4096x128_S256x4096_1_1_0_0_n_n 128 rfl rfl).symm k) = ix2 n k := funext fun a => Fin.ext (by
    match a with
    | ⟨0, _⟩ => exact lhs_scores_0 _ _
    | ⟨1, _⟩ => exact (lhs_scores_1 _ _).trans hk)
  have er : dot_S256x128_S4096x128_S256x4096_1_1_0_0_n_n.rhsIdx (ix2 n m) ((ValueIdx.contrEquiv1 dot_S256x128_S4096x128_S256x4096_1_1_0_0_n_n 128 rfl rfl).symm k) = ix2 m k := funext fun a => Fin.ext (by
    match a with
    | ⟨0, _⟩ => exact rhs_scores_0 _ _
    | ⟨1, _⟩ => exact (rhs_scores_1 _ _).trans hk)
  rw [el, er]

/-! ## The body's stored value at an index

The body sums each query row's gates over the key rows and stores the 256 sums as a column: a `[256]` vector cast to
`[256, 1]` and then to the block's shape `[1, 256, 1]`. -/

/-- A vector `[a]` cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The sum along the key axis of a `[256, 4096]` array, at row `n`, is the sum of that row's 4096 entries. -/
theorem lanesum_apply (src : FVec Ideal S256x4096 .f32) (h : S256x4096.Reduces [1] S256) (hφ : FKind.Formats .f32)
    (hacc : (0x00000000#32 : BitVec 32) = FKind.add.neutral .f32 hφ) (n : Fin 256) :
    multiReduction (F := Ideal) .add [1] S256 src 0x00000000#32 h hφ hacc (ix1 n) = ∑ m : Fin 4096, src (ix2 n m) := by
  refine (Ideal.multiReduction_add_single src 0x00000000#32 h hφ hacc (ix1 n)).trans ?_
  refine Finset.sum_congr rfl fun m _ => congrArg src ?_
  funext a
  apply Fin.ext
  match a with
  | ⟨0, _⟩ => rfl
  | ⟨1, _⟩ => rfl

/-- THE STORED COLUMN AT ROW `n`: the sum over the view's 4096 key rows `m` of the gate between the tile's query row
    `n` and key row `m`, the gate being the logistic function of the two rows' inner product over the 128 columns. -/
theorem pay_apply (x0 : Vec Ideal S1x256x128 .f32) (x1 : Vec Ideal S1x4096x128 .f32) (u : Fin 1) (n : Fin 256) (w : Fin 1) :
    k1_pay1 (F := Ideal) x0 x1 (ix3 u n w)
      = ∑ m : Fin 4096, Ideal.logistic (∑ d : Fin 128, x0 (ix3 (0 : Fin 1) n d) * x1 (ix3 (0 : Fin 1) m d)) := by
  unfold k1_pay1
  refine (shapeCast_ab_1ab_apply _ _ u n w).trans ?_
  refine (shapeCast_a_a1_apply _ _ n w).trans ?_
  refine (lanesum_apply _ _ _ _ n).trans ?_
  refine Finset.sum_congr rfl fun m _ => ?_
  refine congrArg Ideal.logistic ?_
  refine (scores_apply _ _ n m).trans ?_
  refine Finset.sum_congr rfl fun d _ => ?_
  refine congrArg₂ (· * ·) ?_ ?_
  · exact shapeCast_1ab_ab_apply _ _ n d
  · exact shapeCast_1ab_ab_apply _ _ m d

/-! ## From the tiles to the array

Grid point `(v, r)` takes the query rows `256 r … 256 r + 255` of view `v` and all key rows of view `v`, and writes
the 256 row sums into rows `256 r … 256 r + 255` of view `v` of the output column. -/

theorem hz : (![0, 0, 0] : Fin 3 → Nat) = fun _ => 0 := funext fun a => by fin_cases a <;> rfl

/-- The array the region leaves: at `(v, n, 0)`, the sum over the key rows of view `v` of the gates of query row `n`. -/
abbrev rowsumArr (c : Dev nD) : S3x4096x1.Idx → EReal :=
  fun i => rowsum (fun v n o => V c main_v6_0 (ix3 v n o)) (fun v n o => V c main_v6_1 (ix3 v n o)) (i 0) (i 1)

/-- The block index maps, decided over the 48 grid points: the query tile sits where the output tile sits (same view,
    same row tile), the key block is the output's whole view, and the output's block indices stay in range. -/
theorem idx_facts : ∀ t : Fin cfg1.N,
    win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (0 : Fin 3) ≤ 2
    ∧ win1_2.index t (1 : Fin 3) ≤ 15
    ∧ win1_2.index t (2 : Fin 3) = 0 :=
  (by decide +kernel : ∀ t : Fin grid1.N, _)

/-- Every (view, row tile) pair is some grid point's output block. -/
theorem idx_onto : ∀ (q0 : Fin 3) (q1 : Fin 16), ∃ t : Fin cfg1.N, win1_2.index t = ![q0.val, q1.val, 0] :=
  (by decide +kernel : ∀ (q0 : Fin 3) (q1 : Fin 16), ∃ t : Fin grid1.N, win1_2.index t = ![q0.val, q1.val, 0])

/-- The query tile at point `t`, row `n`, column `d`, is the query array at the view and row the block index names. -/
theorem qblk_read (c : Dev nD) (t : Fin cfg1.N) (n : Fin 256) (d : Fin 128) (v : Fin 3) (n' : Fin 4096)
    (hv : v.val = win1_0.index t (0 : Fin 3)) (hn : n'.val = win1_0.index t (1 : Fin 3) * 256 + n.val)
    (h2 : win1_0.index t (2 : Fin 3) = 0) :
    iblk1 V c 0 t (ix3 (0 : Fin 1) n d) = V c main_v6_0 (ix3 v n' d) := by
  show V c main_v6_0 (((cfg1.win 0).blk t).view.emb (ix3 (0 : Fin 1) n d)) = V c main_v6_0 (ix3 v n' d)
  refine congrArg (V c main_v6_0) ?_
  funext a; apply Fin.ext
  match a with
  | ⟨0, _⟩ => show win1_0.index t (0 : Fin 3) * 1 + 1 * 0 = v.val; omega
  | ⟨1, _⟩ => show win1_0.index t (1 : Fin 3) * 256 + 1 * n.val = n'.val; omega
  | ⟨2, _⟩ => show win1_0.index t (2 : Fin 3) * 128 + 1 * d.val = d.val; omega

/-- The key block at point `t`, row `m`, column `d`, is the key array at the block's view, the same row and column. -/
theorem kblk_read (c : Dev nD) (t : Fin cfg1.N) (m : Fin 4096) (d : Fin 128) (v : Fin 3)
    (hv : v.val = win1_1.index t (0 : Fin 3)) (h1 : win1_1.index t (1 : Fin 3) = 0)
    (h2 : win1_1.index t (2 : Fin 3) = 0) :
    iblk1 V c 1 t (ix3 (0 : Fin 1) m d) = V c main_v6_1 (ix3 v m d) := by
  show V c main_v6_1 (((cfg1.win 1).blk t).view.emb (ix3 (0 : Fin 1) m d)) = V c main_v6_1 (ix3 v m d)
  refine congrArg (V c main_v6_1) ?_
  funext a; apply Fin.ext
  match a with
  | ⟨0, _⟩ => show win1_1.index t (0 : Fin 3) * 1 + 1 * 0 = v.val; omega
  | ⟨1, _⟩ => show win1_1.index t (1 : Fin 3) * 4096 + 1 * m.val = m.val; omega
  | ⟨2, _⟩ => show win1_1.index t (2 : Fin 3) * 128 + 1 * d.val = d.val; omega

/-- A tile's stored column at block index `y` is the row sum at view `v` and row `n'`, once the query tile's row
    `y 1` is row `n'` of view `v` of `A` and the key block is view `v` of `B`. -/
theorem block_value (x0 : Vec Ideal S1x256x128 .f32) (x1 : Vec Ideal S1x4096x128 .f32) (A B : Rows) (v : Fin 3) (n' : Fin 4096)
    (y : S1x256x1.Idx)
    (h0 : ∀ d : Fin 128, x0 (ix3 (0 : Fin 1) (y 1) d) = A v n' d)
    (h1 : ∀ (m : Fin 4096) (d : Fin 128), x1 (ix3 (0 : Fin 1) m d) = B v m d) :
    k1_pay1 (F := Ideal) x0 x1 y = rowsum A B v n' := by
  obtain ⟨u, n, w, rfl⟩ : ∃ (u : Fin 1) (n : Fin 256) (w : Fin 1), y = ix3 u n w := ⟨y 0, y 1, y 2, eq_ix3 y⟩
  rw [pay_apply]
  unfold rowsum gate
  refine Finset.sum_congr rfl fun m _ => congrArg Ideal.logistic ?_
  refine Finset.sum_congr rfl fun d _ => ?_
  rw [h0 d, h1 m d]

/-- WHAT POINT `t` WRITES BACK is its block of the row-sum array. -/
theorem flushed_eq (c : Dev nD) (t : Fin cfg1.N) :
    (dat1 (F := Ideal) V c).flushed 2 t = ((cfg1.win 2).blk t).view.read (Elt Ideal) (rowsumArr V c) := by
  show (cfg1.win 2).cut (grid1.coords t) ((dat1 (F := Ideal) V c).after 2 t) = _
  rw [after1_2]
  unfold out1_2
  rw [View.canon_unit_zero hz]
  simp only [View.ld_unit_zero (S := S1x256x128) hz, View.ld_unit_zero (S := S1x4096x128) hz]
  obtain ⟨e0, e1, e2, e3, e4, e5, e6, e7, e8⟩ := idx_facts t
  funext j
  show k1_pay1 (F := Ideal) (iblk1 V c 0 t) (iblk1 V c 1 t) ((cfg1.win 2).xinj (grid1.coords t) j)
    = rowsum (fun v n o => V c main_v6_0 (ix3 v n o)) (fun v n o => V c main_v6_1 (ix3 v n o))
        ((((cfg1.win 2).blk t).view.emb j) 0) ((((cfg1.win 2).blk t).view.emb j) 1)
  have hj1 : (j 1).val < 256 := (j 1).isLt
  have hj0 : (j 0).val < 1 := (j 0).isLt
  refine block_value (iblk1 V c 0 t) (iblk1 V c 1 t) (fun v n o => V c main_v6_0 (ix3 v n o)) (fun v n o => V c main_v6_1 (ix3 v n o))
    ((((cfg1.win 2).blk t).view.emb j) 0) ((((cfg1.win 2).blk t).view.emb j) 1) ((cfg1.win 2).xinj (grid1.coords t) j)
    (fun d => ?_) (fun m d => ?_)
  · refine qblk_read V c t _ d _ _ ?_ ?_ e2
    · show win1_2.index t (0 : Fin 3) * 1 + 1 * (j 0).val = win1_0.index t (0 : Fin 3); omega
    · show win1_2.index t (1 : Fin 3) * 256 + 1 * (j 1).val = win1_0.index t (1 : Fin 3) * 256 + (j 1).val; omega
  · refine kblk_read V c t m d _ ?_ e4 e5
    show win1_2.index t (0 : Fin 3) * 1 + 1 * (j 0).val = win1_1.index t (0 : Fin 3); omega

/-- An index of the output column is in point `t`'s block iff each coordinate is in the block's range on its axis. -/
theorem mem_blk (t : Fin cfg1.N) (i : S3x4096x1.Idx) :
    i ∈ ((cfg1.win 2).blk t).view.set ↔ ∀ a : Fin 3, win1_2.index t a * S1x256x1.size a ≤ (i a).val ∧ (i a).val < win1_2.index t a * S1x256x1.size a + S1x256x1.size a := by
  show i ∈ ((View.whole main_v7).slice (win1_2.rect t)).set ↔ _
  rw [View.set_slice_whole, Rect.mem_set_unit]
  exact Iff.rfl

/-- The 48 blocks cover the column: row `n` of view `v` lies in the block of the point with view `v` and row tile `n / 256`. -/
theorem covered (i : S3x4096x1.Idx) :
    ∃ t : Fin cfg1.N, (cfg1.win 2).flush t = true ∧ i ∈ ((cfg1.win 2).blk t).view.set := by
  have hi0 : (i 0).val < 3 := (i 0).isLt
  have hi1 : (i 1).val < 4096 := (i 1).isLt
  have hi2 : (i 2).val < 1 := (i 2).isLt
  obtain ⟨t, ht⟩ := idx_onto ⟨(i 0).val, hi0⟩ ⟨(i 1).val / 256, by omega⟩
  have q0 : win1_2.index t (0 : Fin 3) = (i 0).val := congrFun ht 0
  have q1 : win1_2.index t (1 : Fin 3) = (i 1).val / 256 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 256 ≤ (i 1).val ∧ (i 1).val < win1_2.index t (1 : Fin 3) * 256 + 256; omega
  | ⟨2, _⟩ => show win1_2.index t (2 : Fin 3) * 1 ≤ (i 2).val ∧ (i 2).val < win1_2.index t (2 : Fin 3) * 1 + 1; omega

/-- THE OUTPUT COLUMN after the call, for any contents at its entry: at `(v, n, 0)` the sum, over the 4096 key rows `m`
    of view `v`, of the gate between query row `n` and key row `m` of that view. -/
theorem rowsums (c : Dev nD) : (dat1 (F := Ideal) V c).arrAt 2 cfg1.N
    = fun i => rowsum (fun v n o => V c main_v6_0 (ix3 v n o)) (fun v n o => V c main_v6_1 (ix3 v n o)) (i 0) (i 1) :=
  (dat1 (F := Ideal) V c).arrAt_eq_of_cover 2 (rowsumArr V c) (fun t _ => flushed_eq V c t) (covered)

end Cert.KernelIdeal.RegionB

end
-- ==== Proof.RegionC.lean ====
import proofs.«423141_j89103391523710_3_alg».proof.Proof.Gen.KernelIdeal.Frame
import proofs.«423141_j89103391523710_3_alg».proof.Proof.Spec
import Idealize.ShloMosaic.Lib.Pipeline.Value
import Idealize.ShloMosaic.Lib.ValueLayout
import Idealize.ShloMosaic.PureOps.Ideal.Laws
set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SigmoidAttn

namespace Cert.KernelIdeal.RegionC
variable (V : (c : Dev nD) → (b : Ref sig .tc) → Buf (Elt Ideal) ((c : Thread nD τ).loc b))

/-!
# The third call: gates against scaled values

One call of the third kernel over its 3 × 16 grid, at the extended reals, for ANY contents of the arrays at the call's
entry. Write `A` (queries), `B` (keys), `C` (values), each `3 × 4096 × 128`, and `R` (row sums, `3 × 4096 × 1`)
for the four arrays the call reads. The call leaves in its `3 × 4096 × 128` output, at view `v`, row `n`, column `d`,

  `∑ m : Fin 4096, σ (∑ e : Fin 128, A v n e * B v m e) * (C v m d / R v m)`,

that is `mix A B C R v n d`: the logistic gate of query row `n` against every key row `m` of the same view, each
times the value row `m` divided by the row sum OF THE SUMMED ROW `m`.

The argument has three steps. (1) Each of the body's two matrix products, into a zero accumulator, is at an entry the
plain sum over its one contracted axis: the 128 columns for the scores `q · kᵀ`, the 4096 key rows for
`gates · scaled values`. (2) The body's stored block at `(n, d)` is that double sum of the loaded blocks, the
narrowing roundings being the identity on the extended reals and the column of row sums being broadcast along the 128
columns before the division. (3) Point `(v, r)` loads query rows `256 r … 256 r + 255` of view `v` and ALL rows of view
`v`'s keys, values and row sums, so what it writes back is rows `256 r … 256 r + 255` of view `v` of one whole-array
function; the 48 blocks tile the array, hence the array ends holding that function.
-/

/-! ## The two products of the body, read at an entry -/

/-- Scores, left operand: the row of an entry of the 256 × 4096 product is the query row. -/
theorem lhs_scores_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide), dif_pos (show (0 : Fin S256x128.rank) ∈ dot_S256x128_S4096x128_S256x4096_1_1_0_0_n_n.lhsNonContracting by decide)]
  rfl
/-- Scores, left operand: its column is the summed one. -/
theorem lhs_scores_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q
/-- Scores, right operand: the column of an entry of the product is the key ROW. -/
theorem rhs_scores_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide), dif_pos (show (0 : Fin S4096x128.rank) ∈ dot_S256x128_S4096x128_S256x4096_1_1_0_0_n_n.rhsNonContracting by decide)]
  rfl
/-- Scores, right operand: its column is the summed one. -/
theorem rhs_scores_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

/-- The score of query row `n` against key row `m`: the inner product of the two rows over the 128 columns. -/
theorem scores_apply (a : FVec Ideal S256x128 .bf16) (b : FVec Ideal S4096x128 .bf16) (n : Fin 256) (m : Fin 4096) :
    matmul dot_S256x128_S4096x128_S256x4096_1_1_0_0_n_n none a b (constant (F := Ideal) S256x4096 .f32 0x00000000#32) (ix2 n m)
      = ∑ e : Fin 128, a (ix2 n e) * b (ix2 m e) := by
  refine (Ideal.matmul_constant_zero_apply dot_S256x128_S4096x128_S256x4096_1_1_0_0_n_n none a b (ix2 n m)).trans ?_
  rw [← Equiv.sum_comp (ValueIdx.contrEquiv1 dot_S256x128_S4096x128_S256x4096_1_1_0_0_n_n 128 rfl rfl).symm]
  refine Finset.sum_congr rfl fun e _ => ?_
  have hk := ValueIdx.contrEquiv1_symm_val dot_S256x128_S4096x128_S256x4096_1_1_0_0_n_n 128 rfl rfl e
  have el : dot_S256x128_S4096x128_S256x4096_1_1_0_0_n_n.lhsIdx (ix2 n m) ((ValueIdx.contrEquiv1 dot_S256x128_S4096x128_S256x4096_1_1_0_0_n_n 128 rfl rfl).symm e) = ix2 n e := funext fun ax => Fin.ext (by
    match ax with
    | ⟨0, _⟩ => exact lhs_scores_0 _ _
    | ⟨1, _⟩ => exact (lhs_scores_1 _ _).trans hk)
  have er : dot_S256x128_S4096x128_S256x4096_1_1_0_0_n_n.rhsIdx (ix2 n m) ((ValueIdx.contrEquiv1 dot_S256x128_S4096x128_S256x4096_1_1_0_0_n_n 128 rfl rfl).symm e) = ix2 m e := funext fun ax => Fin.ext (by
    match ax with
    | ⟨0, _⟩ => exact rhs_scores_0 _ _
    | ⟨1, _⟩ => exact (rhs_scores_1 _ _).trans hk)
  rw [el, er]

/-- Mixing, left operand: the row of an entry of the 256 × 128 product is the gate row. -/
theorem lhs_mixing_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
/-- Mixing, left operand: its column, the key row, is the summed one. -/
theorem lhs_mixing_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
/-- Mixing, right operand: its row is the summed one. -/
theorem rhs_mixing_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
/-- Mixing, right operand: its column is the entry's column. -/
theorem rhs_mixing_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The gates against the scaled values: entry `(n, d)` sums, over the 4096 key rows `m`, gate `(n, m)` times scaled value `(m, d)`. -/
theorem mixing_apply (g : FVec Ideal S256x4096 .bf16) (w : FVec Ideal S4096x128 .bf16) (n : Fin 256) (d : Fin 128) :
    matmul dot_S256x4096_S4096x128_S256x128_1_0_0_1_n_n none g w (constant (F := Ideal) S256x128 .f32 0x00000000#32) (ix2 n d)
      = ∑ m : Fin 4096, g (ix2 n m) * w (ix2 m d) := by
  refine (Ideal.matmul_constant_zero_apply dot_S256x4096_S4096x128_S256x128_1_0_0_1_n_n none g w (ix2 n d)).trans ?_
  rw [← Equiv.sum_comp (ValueIdx.contrEquiv1 dot_S256x4096_S4096x128_S256x128_1_0_0_1_n_n 4096 rfl rfl).symm]
  refine Finset.sum_congr rfl fun m _ => ?_
  have hk := ValueIdx.contrEquiv1_symm_val dot_S256x4096_S4096x128_S256x128_1_0_0_1_n_n 4096 rfl rfl m
  have el : dot_S256x4096_S4096x128_S256x128_1_0_0_1_n_n.lhsIdx (ix2 n d) ((ValueIdx.contrEquiv1 dot_S256x4096_S4096x128_S256x128_1_0_0_1_n_n 4096 rfl rfl).symm m) = ix2 n m := funext fun ax => Fin.ext (by
    match ax with
    | ⟨0, _⟩ => exact lhs_mixing_0 _ _
    | ⟨1, _⟩ => exact (lhs_mixing_1 _ _).trans hk)
  have er : dot_S256x4096_S4096x128_S256x128_1_0_0_1_n_n.rhsIdx (ix2 n d) ((ValueIdx.contrEquiv1 dot_S256x4096_S4096x128_S256x128_1_0_0_1_n_n 4096 rfl rfl).symm m) = ix2 m d := funext fun ax => Fin.ext (by
    match ax with
    | ⟨0, _⟩ => exact (rhs_mixing_0 _ _).trans hk
    | ⟨1, _⟩ => exact rhs_mixing_1 _ _)
  rw [el, er]

/-! ## The body's payload at an entry -/

/-- A one-column array `[a, 1]` broadcast to `[a, b]` reads, at `(p, c)`, the operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- WHAT THE BODY STORES at row `n`, column `d` of its block, from the blocks it loaded: over the key rows `m`, the
    logistic gate of the inner product of query row `n` and key row `m`, times value `(m, d)` divided by row sum `m`. The
    roundings to the narrow format are the identity on the extended reals, and the unit leading axis of every block is
    dropped on the way in and put back on the way out. -/
theorem payload_apply (q : Vec Ideal S1x256x128 .f32) (k : Vec Ideal S1x4096x128 .f32) (v : Vec Ideal S1x4096x128 .f32)
    (rs : Vec Ideal S1x4096x1 .f32) (u : Fin 1) (n : Fin 256) (d : Fin 128) :
    k2_pay1 (F := Ideal) q k v rs (ix3 u n d)
      = ∑ m : Fin 4096, Ideal.logistic (∑ e : Fin 128, q (ix3 (0 : Fin 1) n e) * k (ix3 (0 : Fin 1) m e))
          * Ideal.div (v (ix3 (0 : Fin 1) m d)) (rs (ix3 (0 : Fin 1) m (0 : Fin 1))) := by
  unfold k2_pay1
  refine (shapeCast_ab_1ab_apply _ shapeCasts_S256x128_S1x256x128 u n d).trans ?_
  refine (mixing_apply _ _ n d).trans ?_
  refine Finset.sum_congr rfl fun m _ => ?_
  refine congrArg₂ (· * ·) ?_ ?_
  · show Ideal.logistic (matmul dot_S256x128_S4096x128_S256x4096_1_1_0_0_n_n none _ _ (constant (F := Ideal) S256x4096 .f32 0x00000000#32) (ix2 n m)) = _
    refine congrArg Ideal.logistic ?_
    refine (scores_apply _ _ n m).trans ?_
    refine Finset.sum_congr rfl fun e _ => ?_
    refine congrArg₂ (· * ·) ?_ ?_
    · exact shapeCast_1ab_ab_apply q shapeCasts_S1x256x128_S256x128 n e
    · exact shapeCast_1ab_ab_apply k shapeCasts_S1x4096x128_S4096x128 m e
  · show Ideal.div (shapeCast S4096x128 v shapeCasts_S1x4096x128_S4096x128 (ix2 m d)) (broadcastTo S4096x128 (shapeCast S4096x1 rs shapeCasts_S1x4096x1_S4096x1) broadcasts_S4096x1_S4096x128 (ix2 m d)) = _
    refine congrArg₂ Ideal.div ?_ ?_
    · exact shapeCast_1ab_ab_apply v shapeCasts_S1x4096x128_S4096x128 m d
    · refine (broadcastTo_a1_ab_apply _ broadcasts_S4096x1_S4096x128 m d).trans ?_
      exact shapeCast_1ab_ab_apply rs shapeCasts_S1x4096x1_S4096x1 m (0 : Fin 1)

/-! ## From the block a point writes back to the whole array

Point `t = (v, r)` of the 3 × 16 grid loads rows `256 r … 256 r + 255` of view `v`'s queries, ALL 4096 rows of view
`v`'s keys, values and row sums, and writes back rows `256 r … 256 r + 255` of view `v` of the result. An entry
`(v, n, d)` of the result depends on query row `n`, on every key row, on column `d` of every value row and on every row
sum, all of view `v`. -/

/-- The payload's entry against whole-array functions: if the loaded blocks are the rows the entry depends on, the
    entry is `mix` there. -/
theorem entry_eq_mix (q : Vec Ideal S1x256x128 .f32) (k : Vec Ideal S1x4096x128 .f32) (v : Vec Ideal S1x4096x128 .f32)
    (rs : Vec Ideal S1x4096x1 .f32) (A B C : Rows) (R : Fin 3 → Fin 4096 → EReal)
    (w : Fin 3) (nn : Fin 4096) (dd : Fin 128) (u : Fin 1) (n : Fin 256) (d : Fin 128)
    (hq : ∀ e : Fin 128, q (ix3 (0 : Fin 1) n e) = A w nn e)
    (hk : ∀ (m : Fin 4096) (e : Fin 128), k (ix3 (0 : Fin 1) m e) = B w m e)
    (hv : ∀ m : Fin 4096, v (ix3 (0 : Fin 1) m d) = C w m dd)
    (hr : ∀ m : Fin 4096, rs (ix3 (0 : Fin 1) m (0 : Fin 1)) = R w m) :
    k2_pay1 (F := Ideal) q k v rs (ix3 u n d) = mix A B C R w nn dd := by
  rw [payload_apply]
  unfold mix gate
  simp only [hq, hk, hv, hr]

/-- The zero offsets of the body's whole-block accesses. -/
theorem zero_offsets : (![0, 0, 0] : Fin 3 → Nat) = fun _ => 0 := funext fun a => by fin_cases a <;> rfl

/-- The printed index maps, decided over the 48 points: the query block moves with the output block; the key,
    value and row-sum blocks follow its view and are whole in the rows; no block is split in the columns. -/
theorem block_indices : ∀ t : Fin cfg2.N,
    win2_0.index t (0 : Fin 3) = win2_4.index t (0 : Fin 3)
    ∧ win2_0.index t (1 : Fin 3) = win2_4.index t (1 : Fin 3)
    ∧ win2_0.index t (2 : Fin 3) = 0
    ∧ win2_1.index t (0 : Fin 3) = win2_4.index t (0 : Fin 3)
    ∧ win2_1.index t (1 : Fin 3) = 0
    ∧ win2_1.index t (2 : Fin 3) = 0
    ∧ win2_2.index t (0 : Fin 3) = win2_4.index t (0 : Fin 3)
    ∧ win2_2.index t (1 : Fin 3) = 0
    ∧ win2_2.index t (2 : Fin 3) = 0
    ∧ win2_3.index t (0 : Fin 3) = win2_4.index t (0 : Fin 3)
    ∧ win2_3.index t (1 : Fin 3) = 0
    ∧ win2_3.index t (2 : Fin 3) = 0
    ∧ win2_4.index t (0 : Fin 3) ≤ 2
    ∧ win2_4.index t (1 : Fin 3) ≤ 15
    ∧ win2_4.index t (2 : Fin 3) = 0 :=
  (by decide +kernel : ∀ t : Fin grid2.N, _)

/-- Every (view, row tile) is some point's output block. -/
theorem block_onto : ∀ (v : Fin 3) (r : Fin 16), ∃ t : Fin cfg2.N, win2_4.index t = ![v.val, r.val, 0] :=
  (by decide +kernel : ∀ (v : Fin 3) (r : Fin 16), ∃ t : Fin grid2.N, win2_4.index t = ![v.val, r.val, 0])

/-- The whole result array as one function of the four arrays the region finds. -/
abbrev mixed (c : Dev nD) : S3x4096x128.Idx → EReal :=
  fun i => mix (fun v n o => V c main_v6_0 (ix3 v n o)) (fun v n o => V c main_v6_1 (ix3 v n o))
    (fun v n o => V c main_v6_2 (ix3 v n o)) (fun v n => V c main_v7 (ix3 v n 0)) (i 0) (i 1) (i 2)

/-- WHAT POINT `t` WRITES BACK is its block of the whole-array function. -/
theorem flushed_eq (c : Dev nD) (t : Fin cfg2.N) :
    (dat2 (F := Ideal) V c).flushed 4 t = ((cfg2.win 4).blk t).view.read (Elt Ideal) (mixed V c) := by
  show (cfg2.win 4).cut (grid2.coords t) ((dat2 (F := Ideal) V c).after 4 t) = _
  rw [after2_4]
  unfold out2_4
  rw [View.canon_unit_zero zero_offsets]
  simp only [View.ld_unit_zero (S := S1x256x128) zero_offsets, View.ld_unit_zero (S := S1x4096x128) zero_offsets,
    View.ld_unit_zero (S := S1x4096x1) zero_offsets]
  obtain ⟨e00, e01, e02, e10, e11, e12, e20, e21, e22, e30, e31, e32, b0, b1, e42⟩ := block_indices t
  refine funext fun (j : S1x256x128.Idx) => ?_
  obtain ⟨u, n, d, rfl⟩ : ∃ (u : Fin 1) (n : Fin 256) (d : Fin 128), j = ix3 u n d := ⟨j 0, j 1, j 2, eq_ix3 j⟩
  show k2_pay1 (F := Ideal) (iblk2 V c 0 t) (iblk2 V c 1 t) (iblk2 V c 2 t) (iblk2 V c 3 t) (ix3 u n d)
    = mixed V c (((cfg2.win 4).blk t).view.emb (ix3 u n d))
  refine entry_eq_mix (iblk2 V c 0 t) (iblk2 V c 1 t) (iblk2 V c 2 t) (iblk2 V c 3 t)
    (fun v n o => V c main_v6_0 (ix3 v n o)) (fun v n o => V c main_v6_1 (ix3 v n o))
    (fun v n o => V c main_v6_2 (ix3 v n o)) (fun v n => V c main_v7 (ix3 v n 0))
    ((((cfg2.win 4).blk t).view.emb (ix3 u n d)) 0) ((((cfg2.win 4).blk t).view.emb (ix3 u n d)) 1)
    ((((cfg2.win 4).blk t).view.emb (ix3 u n d)) 2) u n d ?_ ?_ ?_ ?_
  · intro e
    show V c main_v6_0 (((cfg2.win 0).blk t).view.emb (ix3 (0 : Fin 1) n e))
      = V c main_v6_0 (ix3 ((((cfg2.win 4).blk t).view.emb (ix3 u n d)) 0) ((((cfg2.win 4).blk t).view.emb (ix3 u n d)) 1) e)
    refine congrArg _ (funext fun a => Fin.ext ?_)
    match a with
    | ⟨0, _⟩ => show win2_0.index t (0 : Fin 3) * 1 + 1 * ((0 : Fin 1) : ℕ) = win2_4.index t (0 : Fin 3) * 1 + 1 * (u : ℕ); omega
    | ⟨1, _⟩ => show win2_0.index t (1 : Fin 3) * 256 + 1 * (n : ℕ) = win2_4.index t (1 : Fin 3) * 256 + 1 * (n : ℕ); omega
    | ⟨2, _⟩ => show win2_0.index t (2 : Fin 3) * 128 + 1 * (e : ℕ) = (e : ℕ); omega
  · intro m e
    show V c main_v6_1 (((cfg2.win 1).blk t).view.emb (ix3 (0 : Fin 1) m e))
      = V c main_v6_1 (ix3 ((((cfg2.win 4).blk t).view.emb (ix3 u n d)) 0) m e)
    refine congrArg _ (funext fun a => Fin.ext ?_)
    match a with
    | ⟨0, _⟩ => show win2_1.index t (0 : Fin 3) * 1 + 1 * ((0 : Fin 1) : ℕ) = win2_4.index t (0 : Fin 3) * 1 + 1 * (u : ℕ); omega
    | ⟨1, _⟩ => show win2_1.index t (1 : Fin 3) * 4096 + 1 * (m : ℕ) = (m : ℕ); omega
    | ⟨2, _⟩ => show win2_1.index t (2 : Fin 3) * 128 + 1 * (e : ℕ) = (e : ℕ); omega
  · intro m
    show V c main_v6_2 (((cfg2.win 2).blk t).view.emb (ix3 (0 : Fin 1) m d))
      = V c main_v6_2 (ix3 ((((cfg2.win 4).blk t).view.emb (ix3 u n d)) 0) m ((((cfg2.win 4).blk t).view.emb (ix3 u n d)) 2))
    refine congrArg _ (funext fun a => Fin.ext ?_)
    match a with
    | ⟨0, _⟩ => show win2_2.index t (0 : Fin 3) * 1 + 1 * ((0 : Fin 1) : ℕ) = win2_4.index t (0 : Fin 3) * 1 + 1 * (u : ℕ); omega
    | ⟨1, _⟩ => show win2_2.index t (1 : Fin 3) * 4096 + 1 * (m : ℕ) = (m : ℕ); omega
    | ⟨2, _⟩ => show win2_2.index t (2 : Fin 3) * 128 + 1 * (d : ℕ) = win2_4.index t (2 : Fin 3) * 128 + 1 * (d : ℕ); omega
  · intro m
    show V c main_v7 (((cfg2.win 3).blk t).view.emb (ix3 (0 : Fin 1) m (0 : Fin 1)))
      = V c main_v7 (ix3 ((((cfg2.win 4).blk t).view.emb (ix3 u n d)) 0) m 0)
    refine congrArg _ (funext fun a => Fin.ext ?_)
    match a with
    | ⟨0, _⟩ => show win2_3.index t (0 : Fin 3) * 1 + 1 * ((0 : Fin 1) : ℕ) = win2_4.index t (0 : Fin 3) * 1 + 1 * (u : ℕ); omega
    | ⟨1, _⟩ => show win2_3.index t (1 : Fin 3) * 4096 + 1 * (m : ℕ) = (m : ℕ); omega
    | ⟨2, _⟩ => show win2_3.index t (2 : Fin 3) * 1 + 1 * ((0 : Fin 1) : ℕ) = ((0 : Fin 1) : ℕ); omega

/-- An index of the result array is in point `t`'s block iff each coordinate is in the block's range on its axis. -/
theorem mem_block (t : Fin cfg2.N) (i : S3x4096x128.Idx) :
    i ∈ ((cfg2.win 4).blk t).view.set ↔ ∀ a : Fin 3, win2_4.index t a * S1x256x128.size a ≤ (i a).val ∧ (i a).val < win2_4.index t a * S1x256x128.size a + S1x256x128.size a := by
  show i ∈ ((View.whole main_v8).slice (win2_4.rect t)).set ↔ _
  rw [View.set_slice_whole, Rect.mem_set_unit]
  exact Iff.rfl

/-- THE 48 OUTPUT BLOCKS COVER THE ARRAY: entry `(v, n, d)` lies in the block of the point of view `v` and row tile
    `n / 256`. -/
theorem blocks_cover (i : S3x4096x128.Idx) :
    ∃ t : Fin cfg2.N, (cfg2.win 4).flush t = true ∧ i ∈ ((cfg2.win 4).blk t).view.set := by
  have hi0 : (i 0).val < 3 := (i 0).isLt
  have hi1 : (i 1).val < 4096 := (i 1).isLt
  have hi2 : (i 2).val < 128 := (i 2).isLt
  obtain ⟨t, ht⟩ := block_onto ⟨(i 0).val, hi0⟩ ⟨(i 1).val / 256, by omega⟩
  have q0 : win2_4.index t (0 : Fin 3) = (i 0).val := congrFun ht 0
  have q1 : win2_4.index t (1 : Fin 3) = (i 1).val / 256 := congrFun ht 1
  have q2 : win2_4.index t (2 : Fin 3) = 0 := congrFun ht 2
  refine ⟨t, flush2_4 t, ?_⟩
  rw [mem_block]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 256 ≤ (i 1).val ∧ (i 1).val < win2_4.index t (1 : Fin 3) * 256 + 256; omega
  | ⟨2, _⟩ => show win2_4.index t (2 : Fin 3) * 128 ≤ (i 2).val ∧ (i 2).val < win2_4.index t (2 : Fin 3) * 128 + 128; omega

/-- THE RESULT ARRAY after the call: at view `v`, row `n`, column `d`, the gates of query row `n` against every key row
    `m`, each times value `(m, d)` divided by row sum `m`, whatever the four arrays held at the call's entry. -/
theorem result (c : Dev nD) : (dat2 (F := Ideal) V c).arrAt 4 cfg2.N
    = fun i => mix (fun v n o => V c main_v6_0 (ix3 v n o)) (fun v n o => V c main_v6_1 (ix3 v n o))
        (fun v n o => V c main_v6_2 (ix3 v n o)) (fun v n => V c main_v7 (ix3 v n 0)) (i 0) (i 1) (i 2) :=
  (dat2 (F := Ideal) V c).arrAt_eq_of_cover 4 (mixed V c) (fun t _ => flushed_eq V c t) blocks_cover

end Cert.KernelIdeal.RegionC

end
-- ==== Proof.KernelValue.lean ====
import proofs.«423141_j89103391523710_3_alg».proof.Proof.Gen.KernelIdeal.Frame
import proofs.«423141_j89103391523710_3_alg».proof.Proof.Spec
import proofs.«423141_j89103391523710_3_alg».proof.Proof.HostPre
import proofs.«423141_j89103391523710_3_alg».proof.Proof.RegionA
import proofs.«423141_j89103391523710_3_alg».proof.Proof.RegionB
import proofs.«423141_j89103391523710_3_alg».proof.Proof.RegionC
import Idealize.ShloMosaic.Lib.Pipeline.Value
set_option maxRecDepth 16384

noncomputable section

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.SigmoidAttn

/-! The kernel's result as one function of the arguments. The first call leaves the normalised query and key
    projections and the value projection; the second reads the first two and leaves the row sums of the gates; the
    third reads all four and leaves the gates against the values divided by the row sums. Between calls every array
    keeps what its writer left: a call's input arrays are unchanged by it, and the arrays it does not touch are
    untouched. -/

namespace Cert.KernelIdeal.KernelValue

variable (m : (ℓ : Loc nD τ sig) → Buf (Elt Ideal) ℓ) (ρ : Dev nD → PrngReg)

/-- The query projection of the arguments. -/
abbrev Pq (c : Dev nD) : Rows :=
  proj (m ((c : Thread nD τ).loc main_arg0)) (m ((c : Thread nD τ).loc main_arg1)) (m ((c : Thread nD τ).loc main_arg2))
/-- The key projection of the arguments. -/
abbrev Pk (c : Dev nD) : Rows :=
  proj (m ((c : Thread nD τ).loc main_arg0)) (m ((c : Thread nD τ).loc main_arg3)) (m ((c : Thread nD τ).loc main_arg4))
/-- The value projection of the arguments. -/
abbrev Pv (c : Dev nD) : Rows :=
  proj (m ((c : Thread nD τ).loc main_arg0)) (m ((c : Thread nD τ).loc main_arg5)) (m ((c : Thread nD τ).loc main_arg6))

/-! ### After the first call -/

theorem queries_after0 (c : Dev nD) : (V2 m ρ c main_v6_0 : S3x4096x128.Idx → EReal) = fun i => normed (Pq m c) (i 0) (i 1) (i 2) :=
  (W2_arr m ρ c 7).trans ((RegionA.queries (V1 m ρ) c).trans (by rw [HostPre.queries_proj]))
theorem keys_after0 (c : Dev nD) : (V2 m ρ c main_v6_1 : S3x4096x128.Idx → EReal) = fun i => normed (Pk m c) (i 0) (i 1) (i 2) :=
  (W2_arr m ρ c 8).trans ((RegionA.keys (V1 m ρ) c).trans (by rw [HostPre.keys_proj]))
theorem values_after0 (c : Dev nD) : (V2 m ρ c main_v6_2 : S3x4096x128.Idx → EReal) = fun i => Pv m c (i 0) (i 1) (i 2) :=
  (W2_arr m ρ c 9).trans ((RegionA.values (V1 m ρ) c).trans (by rw [HostPre.values_proj]))

/-! ### After the second call -/

theorem rowsums_after1 (c : Dev nD) : (V3 m ρ c main_v7 : S3x4096x1.Idx → EReal)
    = fun i => rowsum (normed (Pq m c)) (normed (Pk m c)) (i 0) (i 1) := by
  refine (W3_arr m ρ c 2).trans ((RegionB.rowsums (V2 m ρ) c).trans ?_)
  rw [queries_after0, keys_after0]
  rfl
theorem queries_after1 (c : Dev nD) : (V3 m ρ c main_v6_0 : S3x4096x128.Idx → EReal) = fun i => normed (Pq m c) (i 0) (i 1) (i 2) :=
  (W3_arr m ρ c 0).trans (((dat1 (V2 m ρ) c).arrAt_in 0 rfl _).trans ((A_eq1 (V2 m ρ) c 0).trans (queries_after0 m ρ c)))
theorem keys_after1 (c : Dev nD) : (V3 m ρ c main_v6_1 : S3x4096x128.Idx → EReal) = fun i => normed (Pk m c) (i 0) (i 1) (i 2) :=
  (W3_arr m ρ c 1).trans (((dat1 (V2 m ρ) c).arrAt_in 1 rfl _).trans ((A_eq1 (V2 m ρ) c 1).trans (keys_after0 m ρ c)))
theorem values_after1 (c : Dev nD) : (V3 m ρ c main_v6_2 : S3x4096x128.Idx → EReal) = fun i => Pv m c (i 0) (i 1) (i 2) :=
  (W3_of_ne m ρ c main_v6_2 (by decide)).trans (values_after0 m ρ c)

/-! ### After the third call -/

/-- The result buffer at the end of @main. -/
theorem result (c : Dev nD) : (W4 m ρ c (Proc.devRef .tc main_v8) : S3x4096x128.Idx → EReal)
    = fun i => mix (normed (Pq m c)) (normed (Pk m c)) (Pv m c) (rowsum (normed (Pq m c)) (normed (Pk m c))) (i 0) (i 1) (i 2) := by
  refine (W4_arr m ρ c 4).trans ((RegionC.result (V3 m ρ) c).trans ?_)
  rw [queries_after1, keys_after1, values_after1, rowsums_after1]
  rfl

end Cert.KernelIdeal.KernelValue

end
-- ==== Proof.LibReduceTrailing.lean ====
/-
  A float sum over the two trailing axes of a rank-3 array, as the host computes it (`stablehlo.reduce` with an
  `add` body across dimensions [1, 2]), read at the ideal values: the initial value plus the iterated sum over
  the second and third coordinates, the first one held.
-/
import Idealize.ShloMosaic.PureOps.Ideal
import Idealize.ShloMosaic.PureOps.Reduce
import Idealize.ShloMosaic.Lib.ValueIdx

noncomputable section

open Idealize.ShloMosaic Idealize.ShloMosaic.ValueIdx
open scoped BigOperators

namespace Idealize.ShloMosaic.Ideal

/-- Dropping axes 1 and 2 of a rank-3 index keeps its first coordinate. -/
theorem drop_trailing2_val {a b c : Nat} (h : (⟨3, ![a, b, c]⟩ : Shape).ReducesTo [1, 2] ⟨1, ![a]⟩)
    (i : (⟨3, ![a, b, c]⟩ : Shape).Idx) : (h.drop i 0 : Nat) = i 0 :=
  Shape.ReducesTo.drop_apply_val h i 0

/-- The host's sum over axes 1 and 2 of `x : [a, b, c]`, at `v`, is `init + ∑ n, ∑ o, x (v, n, o)`. -/
theorem hostReduceAdd_trailing2 {a b c : Nat} (h : (⟨3, ![a, b, c]⟩ : Shape).ReducesTo [1, 2] ⟨1, ![a]⟩)
    (x : (⟨3, ![a, b, c]⟩ : Shape).Idx → EReal) (init : EReal) (v : Fin a) :
    Ideal.hostReduceAdd h x init (ix1 v) = init + ∑ n : Fin b, ∑ o : Fin c, x (ix3 v n o) := by
  unfold Ideal.hostReduceAdd
  refine congrArg (init + ·) ?_
  rw [← Finset.sum_product']
  refine Finset.sum_nbij' (fun i => ((i 1 : Fin b), (i 2 : Fin c))) (fun p => ix3 v p.1 p.2) ?_ ?_ ?_ ?_ ?_
  · intro i _; exact Finset.mem_product.2 ⟨Finset.mem_univ _, Finset.mem_univ _⟩
  · intro p _
    refine Finset.mem_filter.2 ⟨Finset.mem_univ _, ?_⟩
    funext d
    match d with
    | ⟨0, _⟩ => exact Fin.ext (drop_trailing2_val h (ix3 v p.1 p.2))
  · intro i hi
    have hj := (Finset.mem_filter.1 hi).2
    have h0 : (i 0 : Nat) = v.val := by
      rw [← drop_trailing2_val h i, hj]; rfl
    funext d
    match d with
    | ⟨0, _⟩ => exact Fin.ext h0.symm
    | ⟨1, _⟩ => rfl
    | ⟨2, _⟩ => rfl
  · intro p _; rfl
  · intro i hi
    have hj := (Finset.mem_filter.1 hi).2
    have h0 : (i 0 : Nat) = v.val := by
      rw [← drop_trailing2_val h i, hj]; rfl
    refine congrArg x ?_
    funext d
    match d with
    | ⟨0, _⟩ => exact Fin.ext h0
    | ⟨1, _⟩ => rfl
    | ⟨2, _⟩ => rfl

end Idealize.ShloMosaic.Ideal

end
-- ==== Proof.RefValue.lean ====
/-
  The reference program's result, read at the extended reals, is the specification's attention with the
  normaliser on the summed row.

  Each of the three views projects its 4096 rows of 256 features to 128 columns three times (queries, keys,
  values): entry (v, n, o) is ∑ k, X (v, n, k) · W (v, o, k) + b (v, o). The query and key projections are squared
  and summed over the whole view (all 4096 × 128 entries, one number per view), and every entry is divided by
  the square root of its view's sum. Query row n meets key row m in the gate 1 / (1 + e^(−⟨q n, k m⟩)), which is
  the logistic function of the inner product over the 128 columns. Row n's gates are summed over every key row
  m; that row sum is then broadcast along the QUERY axis, so the gate at (n, m) is divided by the row sum of row
  m, the row that the last product sums over. The result at (v, n, d) is ∑ m, gate (n, m) / rowsum m · value (m, d):
  it depends on query row n, on every key row, and on column d of every value row.
-/
import proofs.«423141_j89103391523710_3_alg».proof.Proof.Gen.ReferenceIdeal.Read
import proofs.«423141_j89103391523710_3_alg».proof.Proof.Spec
import proofs.«423141_j89103391523710_3_alg».proof.Proof.LibReduceTrailing
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx
open Cert.ReferenceIdeal Cert.ReferenceIdeal.Read Cert.SigmoidAttn

namespace Cert.ReferenceIdeal.RefValue

/-- An array of the reference at the ideal values: one extended real per index of the shape. -/
abbrev A3 (S : Shape) := (⟨S, .f32⟩ : BufTy).Contents (Elt Ideal)

/-- The word of `1.0` denotes the extended real `1`. -/
theorem ofBits_one_f32 : Ideal.ofBits .f32 0x3F800000#32 = 1 := by
  simp [Ideal.ofBits, Ideal.ieee, -EReal.coe_mul]; norm_num

/-- The projection's left operand at `(v, n, o)`, feature `k`, is row `n` of the view at feature `k`. -/
theorem lidx_v0 (v : Fin 3) (n : Fin 4096) (o : Fin 128) (k : Fin 256) :
    lidx_main_v0 (ix3 v n o) k = ix3 v n k :=
  funext fun a => Fin.ext (by match a with | ⟨0, _⟩ => rfl | ⟨1, _⟩ => rfl | ⟨2, _⟩ => rfl)

/-- The projection's right operand at `(v, n, o)`, feature `k`, is the weight's column `o` at feature `k`. -/
theorem ridx_v0 (v : Fin 3) (n : Fin 4096) (o : Fin 128) (k : Fin 256) :
    ridx_main_v0 (ix3 v n o) k = ix3 v o k :=
  funext fun a => Fin.ext (by match a with | ⟨0, _⟩ => rfl | ⟨1, _⟩ => rfl | ⟨2, _⟩ => rfl)

/-- The bias broadcast over a one-row slab and then over the rows is read at `(v, o)`. -/
theorem idx_v1_v2 (v : Fin 3) (n : Fin 4096) (o : Fin 128) :
    idx_main_v1 (idx_main_v2 (ix3 v n o)) = ix2 v o :=
  funext fun a => Fin.ext (by match a with | ⟨0, _⟩ => rfl | ⟨1, _⟩ => rfl)

/-- An entry of the query projection: the row against the weight's column, plus the bias. -/
theorem v3_at (X : A3 S3x4096x256) (W : A3 S3x128x256) (b : A3 S3x128) (v : Fin 3) (n : Fin 4096) (o : Fin 128) :
    val_main_v3 (F := Ideal) X W b (ix3 v n o) = proj X W b v n o := by
  rw [val_main_v3_apply, val_main_v0_apply, val_main_v2_apply, val_main_v1_apply, idx_v1_v2]
  simp only [lidx_v0, ridx_v0]
  rfl

/-- The key projection is the same function of its view, weight and bias. -/
theorem v7_eq_v3 (X : A3 S3x4096x256) (W : A3 S3x128x256) (b : A3 S3x128) :
    val_main_v7 (F := Ideal) X W b = val_main_v3 (F := Ideal) X W b := rfl

/-- The value projection is the same function of its view, weight and bias. -/
theorem v11_eq_v3 (X : A3 S3x4096x256) (W : A3 S3x128x256) (b : A3 S3x128) :
    val_main_v11 (F := Ideal) X W b = val_main_v3 (F := Ideal) X W b := rfl

/-- The host's sum over the two trailing axes from the zero word: the iterated sum over rows and columns. -/
theorem reduce_trailing2_at (y : A3 S3x4096x128) (v : Fin 3) :
    Host.reduceAdd (F := Ideal) (φ := .f32) y (val_main_cst (F := Ideal)) Gen.reducesTo_S3x4096x128_S3_d1_2 Gen.h_S_ (ix1 v)
      = ∑ n : Fin 4096, ∑ o : Fin 128, y (ix3 v n o) := by
  simp only [Host.reduceAdd, Ideal.hostReduceAdd_def]
  rw [Ideal.hostReduceAdd_trailing2, val_main_cst_apply, Ideal.ofBits_def, Ideal.ofBits_zero_f32, zero_add]

/-- The query side's reduction is the sum of squares of the query projection over the whole view. -/
theorem sumsq_q (X : (⟨S3x4096x256, .f32⟩ : BufTy).Contents (Elt Ideal)) (Wq : (⟨S3x128x256, .f32⟩ : BufTy).Contents (Elt Ideal)) (bq : (⟨S3x128, .f32⟩ : BufTy).Contents (Elt Ideal)) (v : Fin 3) :
    val_main_v13 (F := Ideal) X Wq bq (ix1 v) = sumsq (proj X Wq bq) v := by
  unfold val_main_v13
  rw [reduce_trailing2_at]
  unfold sumsq
  refine Finset.sum_congr rfl fun n _ => Finset.sum_congr rfl fun o _ => ?_
  rw [val_main_v12_apply, v3_at]
  rfl

/-- The key side's reduction is the same function of its view, weight and bias. -/
theorem v19_eq_v13 (X : A3 S3x4096x256) (W : A3 S3x128x256) (b : A3 S3x128) :
    val_main_v19 (F := Ideal) X W b = val_main_v13 (F := Ideal) X W b := rfl

/-- The key side's reduction is the sum of squares of the key projection over the whole view. -/
theorem sumsq_k (X : (⟨S3x4096x256, .f32⟩ : BufTy).Contents (Elt Ideal)) (Wk : (⟨S3x128x256, .f32⟩ : BufTy).Contents (Elt Ideal)) (bk : (⟨S3x128, .f32⟩ : BufTy).Contents (Elt Ideal)) (v : Fin 3) :
    val_main_v19 (F := Ideal) X Wk bk (ix1 v) = sumsq (proj X Wk bk) v := by
  rw [v19_eq_v13]; exact sumsq_q X Wk bk v

/-- The per-view number broadcast over rows and columns is read at the view `v`. -/
theorem idx_v14_v16 (v : Fin 3) (n : Fin 4096) (o : Fin 128) :
    idx_main_v14 (idx_main_v16 (ix3 v n o)) = ix1 v :=
  funext fun a => Fin.ext (by match a with | ⟨0, _⟩ => rfl)

/-- An entry of the projection divided by the square root of its view's sum of squares. -/
theorem v17_at (X : A3 S3x4096x256) (W : A3 S3x128x256) (b : A3 S3x128) (v : Fin 3) (n : Fin 4096) (o : Fin 128) :
    val_main_v17 (F := Ideal) X W b (ix3 v n o) = normedDiv (proj X W b) v n o := by
  rw [val_main_v17_apply, val_main_v16_apply, val_main_v15_apply, val_main_v14_apply, idx_v14_v16, v3_at, sumsq_q]
  rfl

/-- The key side's normalisation is the same function of its view, weight and bias. -/
theorem v23_eq_v17 (X : A3 S3x4096x256) (W : A3 S3x128x256) (b : A3 S3x128) :
    val_main_v23 (F := Ideal) X W b = val_main_v17 (F := Ideal) X W b := rfl

/-- The gate's left operand at `(v, n, m)`, column `k`, is query row `n` at column `k`. -/
theorem lidx_v24 (v : Fin 3) (n m : Fin 4096) (k : Fin 128) :
    lidx_main_v24 (ix3 v n m) k = ix3 v n k :=
  funext fun a => Fin.ext (by match a with | ⟨0, _⟩ => rfl | ⟨1, _⟩ => rfl | ⟨2, _⟩ => rfl)

/-- The gate's right operand at `(v, n, m)`, column `k`, is key row `m` at column `k`. -/
theorem ridx_v24 (v : Fin 3) (n m : Fin 4096) (k : Fin 128) :
    ridx_main_v24 (ix3 v n m) k = ix3 v m k :=
  funext fun a => Fin.ext (by match a with | ⟨0, _⟩ => rfl | ⟨1, _⟩ => rfl | ⟨2, _⟩ => rfl)

/-- The inner product of normalised query row `n` and normalised key row `m` over the 128 columns. -/
theorem v24_at (X : A3 S3x4096x256) (Wq : A3 S3x128x256) (bq : A3 S3x128) (Wk : A3 S3x128x256) (bk : A3 S3x128)
    (v : Fin 3) (n m : Fin 4096) :
    val_main_v24 (F := Ideal) X Wq bq Wk bk (ix3 v n m)
      = ∑ d : Fin 128, normedDiv (proj X Wq bq) v n d * normedDiv (proj X Wk bk) v m d := by
  rw [val_main_v24_apply]
  refine Finset.sum_congr rfl fun d _ => ?_
  rw [lidx_v24, ridx_v24, v17_at, v23_eq_v17, v17_at]

/-- One over one plus the exponential of the negated inner product is the logistic gate. -/
theorem v30_at (X : A3 S3x4096x256) (Wq : A3 S3x128x256) (bq : A3 S3x128) (Wk : A3 S3x128x256) (bk : A3 S3x128)
    (v : Fin 3) (n m : Fin 4096) :
    val_main_v30 (F := Ideal) X Wq bq Wk bk (ix3 v n m)
      = gate (normedDiv (proj X Wq bq)) (normedDiv (proj X Wk bk)) v n m := by
  rw [val_main_v30_apply, val_main_v29_apply, val_main_cst_2_apply, val_main_v28_apply, val_main_v27_apply,
    val_main_cst_1_apply, val_main_v26_apply, val_main_v25_apply, v24_at]
  simp only [Ideal.ofBits_def, ofBits_one_f32]
  rfl

/-- The `k`-th summand of the row sum at `(v, n)` is the gate at `(v, n, k)`. -/
theorem idx_v31 (v : Fin 3) (n k : Fin 4096) : idx_main_v31 (ix2 v n) k = ix3 v n k :=
  funext fun a => Fin.ext (by match a with | ⟨0, _⟩ => rfl | ⟨1, _⟩ => rfl | ⟨2, _⟩ => rfl)

/-- Row `n`'s gates summed over every key row, from the zero word. -/
theorem v31_at (X : A3 S3x4096x256) (Wq : A3 S3x128x256) (bq : A3 S3x128) (Wk : A3 S3x128x256) (bk : A3 S3x128)
    (v : Fin 3) (n : Fin 4096) :
    val_main_v31 (F := Ideal) X Wq bq Wk bk (ix2 v n)
      = rowsum (normedDiv (proj X Wq bq)) (normedDiv (proj X Wk bk)) v n := by
  rw [val_main_v31_apply, val_main_cst_3_apply, Ideal.ofBits_def, Ideal.ofBits_zero_f32, zero_add]
  unfold rowsum
  refine Finset.sum_congr rfl fun m _ => ?_
  rw [idx_v31, v30_at]

/-- The row sums broadcast over a one-row slab and then along the query axis are read at `(v, m)`. -/
theorem idx_v32_v33 (v : Fin 3) (n m : Fin 4096) :
    idx_main_v32 (idx_main_v33 (ix3 v n m)) = ix2 v m :=
  funext fun a => Fin.ext (by match a with | ⟨0, _⟩ => rfl | ⟨1, _⟩ => rfl)

/-- The row sums are broadcast along the query axis: the gate at `(n, m)` is divided by the row sum of row `m`. -/
theorem v34_at (X : A3 S3x4096x256) (Wq : A3 S3x128x256) (bq : A3 S3x128) (Wk : A3 S3x128x256) (bk : A3 S3x128)
    (v : Fin 3) (n m : Fin 4096) :
    val_main_v34 (F := Ideal) X Wq bq Wk bk (ix3 v n m)
      = Ideal.div (gate (normedDiv (proj X Wq bq)) (normedDiv (proj X Wk bk)) v n m)
          (rowsum (normedDiv (proj X Wq bq)) (normedDiv (proj X Wk bk)) v m) := by
  rw [val_main_v34_apply, val_main_v33_apply, val_main_v32_apply, idx_v32_v33, v30_at, v31_at]
  rfl

/-- The last product's left operand at `(v, n, d)`, key row `k`, is the divided gate at `(v, n, k)`. -/
theorem lidx_v35 (v : Fin 3) (n : Fin 4096) (d : Fin 128) (k : Fin 4096) :
    lidx_main_v35 (ix3 v n d) k = ix3 v n k :=
  funext fun a => Fin.ext (by match a with | ⟨0, _⟩ => rfl | ⟨1, _⟩ => rfl | ⟨2, _⟩ => rfl)

/-- The last product's right operand at `(v, n, d)`, key row `k`, is the value projection at `(v, k, d)`. -/
theorem ridx_v35 (v : Fin 3) (n : Fin 4096) (d : Fin 128) (k : Fin 4096) :
    ridx_main_v35 (ix3 v n d) k = ix3 v k d :=
  funext fun a => Fin.ext (by match a with | ⟨0, _⟩ => rfl | ⟨1, _⟩ => rfl | ⟨2, _⟩ => rfl)

/-- The reference's result: at `(v, n, d)` the sum over key rows `m` of the gate at `(n, m)` over row `m`'s row sum,
    times the value projection at `(m, d)`. -/
theorem result_eq (X : (⟨S3x4096x256, .f32⟩ : BufTy).Contents (Elt Ideal)) (Wq : (⟨S3x128x256, .f32⟩ : BufTy).Contents (Elt Ideal))
    (bq : (⟨S3x128, .f32⟩ : BufTy).Contents (Elt Ideal)) (Wk : (⟨S3x128x256, .f32⟩ : BufTy).Contents (Elt Ideal))
    (bk : (⟨S3x128, .f32⟩ : BufTy).Contents (Elt Ideal)) (Wv : (⟨S3x128x256, .f32⟩ : BufTy).Contents (Elt Ideal))
    (bv : (⟨S3x128, .f32⟩ : BufTy).Contents (Elt Ideal)) :
    val_main_v35 (F := Ideal) X Wq bq Wk bk Wv bv
      = fun i => mixDiv (normedDiv (proj X Wq bq)) (normedDiv (proj X Wk bk)) (proj X Wv bv)
          (rowsum (normedDiv (proj X Wq bq)) (normedDiv (proj X Wk bk))) (i 0) (i 1) (i 2) := by
  funext i
  obtain ⟨v, n, d, rfl⟩ : ∃ (v : Fin 3) (n : Fin 4096) (d : Fin 128), i = ix3 v n d := ⟨i 0, i 1, i 2, eq_ix3 i⟩
  rw [val_main_v35_apply]
  show _ = mixDiv (normedDiv (proj X Wq bq)) (normedDiv (proj X Wk bk)) (proj X Wv bv)
          (rowsum (normedDiv (proj X Wq bq)) (normedDiv (proj X Wk bk))) v n d
  unfold mixDiv
  refine Finset.sum_congr rfl fun m _ => ?_
  rw [lidx_v35, ridx_v35, v34_at, v11_eq_v3, v3_at]

end Cert.ReferenceIdeal.RefValue

end
-- ==== Proof.Algebra.lean ====
/-
  Where the two arrangements of the computation agree, on the extended reals.

  An extended real that is a real number stays one under sums, products, the reciprocal square root of a positive
  number and the gate `σ`. For a positive real `s`, `x · s^(-1/2) = x / √s` for every extended real `x` (the
  quotient by a non-zero real is the product with its inverse). A gate of a real is a real in `(0, 1)`, so a row's
  4096 gates sum to a positive real, which is not zero; and for `r ≠ 0`, `(a / r) · c = a · (c / r)` by
  commutativity and associativity of the product alone.
-/
import proofs.«423141_j89103391523710_3_alg».proof.Proof.Spec
import Mathlib.Data.EReal.Inv
import Mathlib.Analysis.SpecialFunctions.Sqrt
import Mathlib.Analysis.SpecialFunctions.Exp

noncomputable section

open Idealize.ShloMosaic Idealize.ShloMosaic.ValueIdx
open scoped BigOperators

namespace Cert.SigmoidAttn

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type*} (s : Finset ι) (f : ι → EReal) (hf : ∀ i ∈ s, IsR (f i)) : IsR (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- A sum of squares of reals is a non-negative real. -/
theorem sum_mul_self_nonneg {ι : Type*} (s : Finset ι) (f : ι → EReal) (hf : ∀ i ∈ s, IsR (f i)) :
    ∃ r : ℝ, 0 ≤ r ∧ ∑ i ∈ s, f i * f i = (r : EReal) := by
  classical
  induction s using Finset.induction_on with
  | empty => exact ⟨0, le_refl _, by simp⟩
  | insert a s ha ih =>
    obtain ⟨r, hr, e⟩ := ih fun i hi => hf i (Finset.mem_insert_of_mem hi)
    obtain ⟨x, hx⟩ := hf a (Finset.mem_insert_self a s)
    refine ⟨x * x + r, add_nonneg (mul_self_nonneg x) hr, ?_⟩
    rw [Finset.sum_insert ha, e, hx, ← EReal.coe_mul, ← EReal.coe_add]

/-- The projection of real arrays is real. -/
theorem proj_isR (X : Arr3 3 4096 256) (W : Arr3 3 128 256) (b : Arr2 3 128) (hX : ∀ i, IsR (X i)) (hW : ∀ i, IsR (W i))
    (hb : ∀ i, IsR (b i)) (v : Fin 3) (n : Fin 4096) (o : Fin 128) : IsR (proj X W b v n o) :=
  (IsR.sum _ _ fun k _ => (hX _).mul (hW _)).add (hb _)

/-- A view's sum of squares of reals is a real. -/
theorem sumsq_isR (P : Rows) (hP : ∀ v n o, IsR (P v n o)) (v : Fin 3) : IsR (sumsq P v) :=
  IsR.sum _ _ fun n _ => IsR.sum _ _ fun o _ => (hP v n o).mul (hP v n o)

/-- For a positive real `s`: `x · s^(-1/2) = x / √s`, and the factor is a real. -/
theorem mul_rsqrt_eq_div_sqrt (x : EReal) (s : ℝ) (hs : 0 < s) :
    x * Ideal.rsqrt (s : EReal) = Ideal.div x (Ideal.sqrt (s : EReal)) := by
  have hq : Real.sqrt s ≠ 0 := (Real.sqrt_pos.2 hs).ne'
  rw [Ideal.rsqrt_coe, if_neg (not_lt.2 hs.le), if_neg hs.ne', Ideal.sqrt_coe, if_neg (not_lt.2 hs.le), Ideal.div,
    if_neg (by exact_mod_cast hq), EReal.coe_inv]

theorem rsqrt_isR (s : ℝ) (hs : 0 < s) : IsR (Ideal.rsqrt (s : EReal)) := by
  rw [Ideal.rsqrt_coe, if_neg (not_lt.2 hs.le), if_neg hs.ne']; exact ⟨_, rfl⟩

/-- Where every view's sum of squares is a positive real the two normalisations are one. -/
theorem normedDiv_eq_normed (P : Rows) (hP : ∀ v n o, IsR (P v n o)) (hs : ∀ v, 0 < sumsq P v) : normedDiv P = normed P := by
  funext v n o
  obtain ⟨s, e⟩ := sumsq_isR P hP v
  have hs' : 0 < s := by have := hs v; rw [e] at this; exact_mod_cast this
  unfold normedDiv normed
  rw [e, mul_rsqrt_eq_div_sqrt _ s hs']

theorem normed_isR (P : Rows) (hP : ∀ v n o, IsR (P v n o)) (hs : ∀ v, 0 < sumsq P v) (v : Fin 3) (n : Fin 4096) (o : Fin 128) :
    IsR (normed P v n o) := by
  obtain ⟨s, e⟩ := sumsq_isR P hP v
  have hs' : 0 < s := by have := hs v; rw [e] at this; exact_mod_cast this
  unfold normed
  rw [e]; exact (hP v n o).mul (rsqrt_isR s hs')

/-- The gate of real rows is a positive real. -/
theorem gate_pos (A B : Rows) (hA : ∀ v n o, IsR (A v n o)) (hB : ∀ v n o, IsR (B v n o)) (v : Fin 3) (n m : Fin 4096) :
    ∃ r : ℝ, 0 < r ∧ gate A B v n m = (r : EReal) := by
  obtain ⟨t, e⟩ := IsR.sum Finset.univ (fun d : Fin 128 => A v n d * B v m d) fun d _ => (hA v n d).mul (hB v m d)
  refine ⟨(1 + Real.exp (-t))⁻¹, inv_pos.2 (by positivity), ?_⟩
  unfold gate
  rw [e, Ideal.logistic_coe]

/-- A sum of positive reals over a non-empty index set is a positive real. -/
theorem sum_pos_real {ι : Type*} (s : Finset ι) (hne : s.Nonempty) (f : ι → EReal) (hf : ∀ i ∈ s, ∃ r : ℝ, 0 < r ∧ f i = (r : EReal)) :
    ∃ r : ℝ, 0 < r ∧ ∑ i ∈ s, f i = (r : EReal) := by
  classical
  induction hne using Finset.Nonempty.cons_induction with
  | singleton a =>
    obtain ⟨r, hr, e⟩ := hf a (Finset.mem_singleton_self a)
    exact ⟨r, hr, by rw [Finset.sum_singleton, e]⟩
  | cons a s ha hs ih =>
    obtain ⟨r, hr, e⟩ := ih fun i hi => hf i (Finset.mem_cons_of_mem hi)
    obtain ⟨x, hx, ex⟩ := hf a (Finset.mem_cons_self a s)
    exact ⟨x + r, add_pos hx hr, by rw [Finset.sum_cons, e, ex, ← EReal.coe_add]⟩

/-- A row's gates sum to something that is not zero. -/
theorem rowsum_ne_zero (A B : Rows) (hA : ∀ v n o, IsR (A v n o)) (hB : ∀ v n o, IsR (B v n o)) (v : Fin 3) (n : Fin 4096) :
    rowsum A B v n ≠ 0 := by
  obtain ⟨r, hr, e⟩ := sum_pos_real (Finset.univ : Finset (Fin 4096)) ⟨⟨0, by decide⟩, Finset.mem_univ _⟩
    (fun m => gate A B v n m) fun m _ => gate_pos A B hA hB v n m
  unfold rowsum
  rw [e]
  exact_mod_cast hr.ne'

/-- Dividing the left factor or the right factor by a non-zero `r` is the same. -/
theorem div_mul_eq_mul_div (a c r : EReal) (hr : r ≠ 0) : Ideal.div a r * c = a * Ideal.div c r := by
  unfold Ideal.div
  rw [if_neg hr, if_neg hr, mul_assoc, mul_comm r⁻¹ c]

/-- THE LAW that joins the two programs: for real query and key projections whose sums of squares are positive,
    dividing by the norm and dividing the gates by the row sums gives what multiplying by the reciprocal norm and
    dividing the values by the row sums gives. -/
theorem mixDiv_eq_mix (P Q C : Rows) (hP : ∀ v n o, IsR (P v n o)) (hQ : ∀ v n o, IsR (Q v n o))
    (hsP : ∀ v, 0 < sumsq P v) (hsQ : ∀ v, 0 < sumsq Q v) :
    mixDiv (normedDiv P) (normedDiv Q) C (rowsum (normedDiv P) (normedDiv Q))
      = mix (normed P) (normed Q) C (rowsum (normed P) (normed Q)) := by
  rw [normedDiv_eq_normed P hP hsP, normedDiv_eq_normed Q hQ hsQ]
  funext v n d
  unfold mixDiv mix
  exact Finset.sum_congr rfl fun m _ =>
    div_mul_eq_mul_div _ _ _ (rowsum_ne_zero _ _ (normed_isR P hP hsP) (normed_isR Q hQ hsQ) v m)

end Cert.SigmoidAttn

end
-- ==== Proof.PreFacts.lean ====
import proofs.«423141_j89103391523710_3_alg».proof.Pre_finite_inputs
import proofs.«423141_j89103391523710_3_alg».proof.Proof.Gen.ReferenceIdeal.Read
import proofs.«423141_j89103391523710_3_alg».proof.Proof.Algebra
import Idealize.ShloMosaic.Lib.ReduceAll
import Idealize.ShloMosaic.Lib.ValueIdx
import Idealize.ShloMosaic.PureOps.Ideal.Laws

noncomputable section

open Idealize.ShloMosaic Idealize.ShloMosaic.ValueIdx
open Cert.SigmoidAttn

/-! What the precondition says, read off its printed predicate at the ideal values. Each of its nine conjuncts is
    a `jnp.all`: seven say every entry of an argument has absolute value below `+∞`, so every entry is a real
    number; two say that in each of the three views the sum of squares of the query projection, and of the key
    projection, is greater than zero — the very sums the reference takes square roots of and divides by. -/

namespace Cert.Pre_finite_inputs.Decode

open Cert.Pre_finite_inputs

variable [Cert.Pre_finite_inputs.Facts]

/-- The pattern the predicate compares absolute values with is `+∞`. -/
theorem top_eq : Ideal.ofBits .f32 0x7F800000#32 = (⊤ : EReal) := by simp [Ideal.ofBits, Ideal.ieee]

instance : Subsingleton S_.Idx := ⟨fun a b => funext fun d => d.elim0⟩

/-- An extended real whose absolute value is below `+∞` is a real number. -/
theorem isR_of_abs_lt (x : EReal) (h : Ideal.cmp .olt (max x (-x)) (Ideal.ofBits .f32 0x7F800000#32) = 1#1) : IsR x := by
  rw [top_eq] at h
  have h' : max x (-x) < ⊤ := by
    by_contra hc
    simp [Ideal.cmp, hc] at h
  induction x using EReal.rec with
  | bot => simp at h'
  | coe r => exact ⟨r, rfl⟩
  | top => simp at h'

/-- A comparison "greater than the zero pattern" that holds says the number is positive. -/
theorem pos_of_gt (a : EReal) (h : Ideal.cmp .ogt a (Ideal.ofBits .f32 0x00000000#32) = 1#1) : 0 < a := by
  rw [Ideal.ofBits_zero_f32] at h
  by_contra hc
  simp [Ideal.cmp, hc] at h

set_option maxRecDepth 8192 in
/-- The precondition, decoded: every argument entry a real number, and both sums of squares positive in every view. -/
theorem facts (X : FVec Ideal S3x4096x256 .f32) (Wq : FVec Ideal S3x128x256 .f32) (bq : FVec Ideal S3x128 .f32)
    (Wk : FVec Ideal S3x128x256 .f32) (bk : FVec Ideal S3x128 .f32) (Wv : FVec Ideal S3x128x256 .f32) (bv : FVec Ideal S3x128 .f32)
    (h : fn (F := Ideal) X Wq bq Wk bk Wv bv = fun _ => 1#1) :
    (∀ i, IsR (X i)) ∧ (∀ i, IsR (Wq i)) ∧ (∀ i, IsR (bq i)) ∧ (∀ i, IsR (Wk i)) ∧ (∀ i, IsR (bk i)) ∧ (∀ i, IsR (Wv i))
      ∧ (∀ i, IsR (bv i))
      ∧ (∀ v : Fin 3, 0 < Cert.ReferenceIdeal.Read.val_main_v13 (F := Ideal) X Wq bq (ix1 v))
      ∧ (∀ v : Fin 3, 0 < Cert.ReferenceIdeal.Read.val_main_v19 (F := Ideal) X Wk bk (ix1 v)) := by
  have h0 := congrFun h ix0
  dsimp only [fn, fn_part1, fn_part2, fn_part3] at h0
  simp only [andi, IntOp.andi_eq_one] at h0
  obtain ⟨⟨⟨⟨⟨⟨⟨⟨h1, h2⟩, h3⟩, h4⟩, h5⟩, h6⟩, h7⟩, h8⟩, h9⟩ := h0
  refine ⟨fun i => isR_of_abs_lt _ (Host.reduce_andi_all _ _ _ _ ix0 h1 i),
    fun i => isR_of_abs_lt _ (Host.reduce_andi_all _ _ _ _ ix0 h2 i),
    fun i => isR_of_abs_lt _ (Host.reduce_andi_all _ _ _ _ ix0 h3 i),
    fun i => isR_of_abs_lt _ (Host.reduce_andi_all _ _ _ _ ix0 h4 i),
    fun i => isR_of_abs_lt _ (Host.reduce_andi_all _ _ _ _ ix0 h5 i),
    fun i => isR_of_abs_lt _ (Host.reduce_andi_all _ _ _ _ ix0 h6 i),
    fun i => isR_of_abs_lt _ (Host.reduce_andi_all _ _ _ _ ix0 h7 i),
    fun v => pos_of_gt _ (Host.reduce_andi_all _ _ _ _ ix0 h8 (ix1 v)),
    fun v => pos_of_gt _ (Host.reduce_andi_all _ _ _ _ ix0 h9 (ix1 v))⟩

end Cert.Pre_finite_inputs.Decode

end
-- ==== Proof.lean ====
/-
  The certificate of a sigmoid-gated attention over three views: a Pallas kernel of three calls against its jnp
  reference, compared over the extended reals.

  Per view, 4096 rows are projected to queries, keys and values; queries and keys are divided by their Frobenius
  norm over the view; the gate between query row `n` and key row `m` is `σ(⟨q n, k m⟩)`; the result at row `n` is
  `∑ m, gate n m · value m / rowsum m`, the row sum being that of the summed row `m`. The kernel multiplies by the
  reciprocal square root of the sum of squares and divides the values by the row sums; the reference divides by the
  square root and divides the gates. The precondition makes every argument entry a real number and both sums of
  squares positive in every view, and there the two agree: `x · s^(-1/2) = x / √s` for a positive real `s`, the gates
  of reals are positive reals so no row sum is zero, and `(a / r) · c = a · (c / r)` for `r ≠ 0`.

  The frames of the two kernel programs are the generated ones; the reference's is its generated run with the result
  dropped; no operation was rewritten by the idealization, so there is nothing to preserve.
-/
import proofs.«423141_j89103391523710_3_alg».proof.Defs
import proofs.«423141_j89103391523710_3_alg».proof.Proof.Gen.Kernel
import proofs.«423141_j89103391523710_3_alg».proof.Proof.Gen.Kernel.Frame
import proofs.«423141_j89103391523710_3_alg».proof.Proof.Gen.KernelIdeal
import proofs.«423141_j89103391523710_3_alg».proof.Proof.Gen.KernelIdeal.Frame
import proofs.«423141_j89103391523710_3_alg».proof.Proof.Gen.ReferenceIdeal
import proofs.«423141_j89103391523710_3_alg».proof.Proof.Gen.ReferenceIdeal.Run
import proofs.«423141_j89103391523710_3_alg».proof.Proof.Gen.ReferenceIdeal.Read
import proofs.«423141_j89103391523710_3_alg».proof.Proof.Gen.Pre_finite_inputs
import proofs.«423141_j89103391523710_3_alg».proof.Proof.FrameValue
import proofs.«423141_j89103391523710_3_alg».proof.Proof.KernelValue
import proofs.«423141_j89103391523710_3_alg».proof.Proof.RefValue
import proofs.«423141_j89103391523710_3_alg».proof.Proof.PreFacts
import proofs.«423141_j89103391523710_3_alg».proof.Proof.Algebra
import Idealize.ShloMosaic.Adequacy
import Idealize.ShloMosaic.Init

noncomputable section

namespace Cert.Proof

open Idealize.ShloMosaic Idealize.ShloMosaic.TcCoe Idealize.ShloMosaic.ValueIdx Idealize.SL.Sem Cert.SigmoidAttn

attribute [local instance] Cert.Kernel.Gen.facts Cert.KernelIdeal.Gen.facts Cert.ReferenceIdeal.Gen.facts Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the kernel's three calls leave the gates against the values over
    the row sums, from the reciprocal-norm arrangement; the reference's run reads as the divided arrangement; the
    precondition's facts join them. -/
theorem algebraic : Cert.algebraic_KernelIdeal_ReferenceIdeal := by
  intro m ρ m' ρ' hpre hagree
  refine ⟨fun c => Cert.KernelIdeal.Gen.W4 m ρ c (Proc.devRef .tc Cert.KernelIdeal.main_v8),
    Cert.KernelIdeal.Gen.run_result m ρ, ?_⟩
  refine (θ_run Cert.ReferenceIdeal.defs _ _).mono (fun _ h c => ⟨(h c).1.trans ?_, (h c).2⟩)
    (Cert.ReferenceIdeal.Value.run (F := Ideal) m' ρ')
  obtain ⟨hX, hWq, hbq, hWk, hbk, hWv, hbv, hsq, hsk⟩ := Cert.Pre_finite_inputs.Decode.facts _ _ _ _ _ _ _ (hpre c)
  show Cert.ReferenceIdeal.Value.res_main_v35 m' c = Cert.KernelIdeal.Gen.W4 m ρ c (Proc.devRef .tc Cert.KernelIdeal.main_v8)
  rw [Cert.KernelIdeal.KernelValue.result m ρ c, Cert.ReferenceIdeal.Read.val_main_v35_eq,
    (hagree c).1, (hagree c).2.1, (hagree c).2.2.1, (hagree c).2.2.2.1, (hagree c).2.2.2.2.1, (hagree c).2.2.2.2.2.1,
    (hagree c).2.2.2.2.2.2, Cert.ReferenceIdeal.RefValue.result_eq]
  rw [mixDiv_eq_mix _ _ _ (proj_isR _ _ _ hX hWq hbq) (proj_isR _ _ _ hX hWk hbk)
    (fun v => by rw [← Cert.ReferenceIdeal.RefValue.sumsq_q]; exact hsq v)
    (fun v => by rw [← Cert.ReferenceIdeal.RefValue.sumsq_k]; exact hsk v)]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
